-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S640000 : Shape := ⟨1, ![640000]⟩
abbrev S640000x50 : Shape := ⟨2, ![640000, 50]⟩
abbrev S50x128 : Shape := ⟨2, ![50, 128]⟩
abbrev S128 : Shape := ⟨1, ![128]⟩
abbrev S128x128 : Shape := ⟨2, ![128, 128]⟩
abbrev S_ : Shape := ⟨0, ![]⟩
abbrev S1x640000 : Shape := ⟨2, ![1, 640000]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S640000x50 : S_.BroadcastsInDim S640000x50 (![] : Fin 0 → Fin S640000x50.rank)
  reducesTo_S640000x50_S_d0_1 : S640000x50.ReducesTo [0, 1] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x640000_S1x640000_0_0 : S2x640000.Slices ![0, 0] S1x640000
  shapeCasts_S1x640000_S640000 : S1x640000.ShapeCasts S640000

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x640000 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : IVec S1x640000 32 := (extractStridedSlice S1x640000 ![0, 0] · slices_S2x640000_S1x640000_0_0) main_arg1
  let main_v60 : IVec S640000 32 := shapeCast S640000 main_v59 shapeCasts_S1x640000_S640000
  let main_c_22 : IVec S_ 32 := constantI S_ 32 4294947296#32
  let main_v61 : IVec S640000 32 := broadcastInDim S640000 ![] bcast_S_S640000 main_c_22
  let main_v62 : IVec S640000 1 := cmpi .sge main_v60 main_v61
  let main_v63 : IVec S1x640000 32 := (extractStridedSlice S1x640000 ![0, 0] · slices_S2x640000_S1x640000_0_0) main_arg1
  let main_v64 : IVec S640000 32 := shapeCast S640000 main_v63 shapeCasts_S1x640000_S640000
  let main_c_23 : IVec S_ 32 := constantI S_ 32 20000#32
  let main_v65 : IVec S640000 32 := broadcastInDim S640000 ![] bcast_S_S640000 main_c_23
  let main_v66 : IVec S640000 1 := cmpi .slt main_v64 main_v65
  let main_v67 : IVec S640000 1 := andi main_v62 main_v66
  let main_c_24 : IVec S_ 1 := constantI S_ 1 1#1
  let main_v68 : IVec S_ 1 := (fun x v => Host.reduce IntOp.andi x v reducesTo_S640000_S_d0 h_S_) main_v67 main_c_24
  fn_part4 (F := F) main_v58 main_v68

def fn_part2 {F : FTy → Type} [FloatOps F] (main_arg1 : IVec S2x640000 32) (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_v48 main_v49 main_v50

def fn_part1 {F : FTy → Type} [FloatOps F] (main_arg1 : IVec S2x640000 32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S50x128 1) : IVec S_ 1 :=
  let main_c_5 : IVec S_ 1 := constantI S_ 1 1#1
  let main_v17 : IVec S_ 1 := (fun x v => Host.reduce IntOp.andi x v reducesTo_S50x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S20000x128 .f32) (main_arg1 : IVec S2x640000 32) (main_arg2 : FVec F S640000 .f32) (main_arg3 : FVec F S640000x50 .f32) (main_arg4 : FVec F S50x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000x50 .f32 := Host.absf main_arg3
  let main_cst_2 : FVec F S_ .f32 := constant S_ .f32 0x7F800000#32
  let main_v10 : FVec F S640000x50 .f32 := broadcastInDim S640000x50 ![] bcast_S_S640000x50 main_cst_2
  let main_v11 : IVec S640000x50 1 := cmpf .olt main_v9 main_v10
  let main_c_3 : IVec S_ 1 := constantI S_ 1 1#1
  let main_v12 : IVec S_ 1 := (fun x v => Host.reduce IntOp.andi x v reducesTo_S640000x50_S_d0_1 h_S_) main_v11 main_c_3
  let main_v13 : IVec S_ 1 := andi main_v8 main_v12
  let main_v14 : FVec F S50x128 .f32 := Host.absf main_arg4
  let main_cst_4 : FVec F S_ .f32 := constant S_ .f32 0x7F800000#32
  let main_v15 : FVec F S50x128 .f32 := broadcastInDim S50x128 ![] bcast_S_S50x128 main_cst_4
  let main_v16 : IVec S50x128 1 := cmpf .olt main_v14 main_v15
  fn_part1 (F := F) main_arg1 main_arg5 main_arg6 main_arg7 main_arg8 main_arg9 main_arg10 main_arg11 main_arg12 main_v13 main_v16
-- ==== Kernel.lean ====
abbrev S20000x128 : Shape := ⟨2, ![20000, 128]⟩
abbrev S2x640000 : Shape := ⟨2, ![2, 640000]⟩
abbrev S640000 : Shape := ⟨1, ![640000]⟩
abbrev S640000x50 : Shape := ⟨2, ![640000, 50]⟩
abbrev S50x128 : Shape := ⟨2, ![50, 128]⟩
abbrev S128 : Shape := ⟨1, ![128]⟩
abbrev S128x128 : Shape := ⟨2, ![128, 128]⟩
abbrev S1x640000 : Shape := ⟨2, ![1, 640000]⟩
abbrev S1x128 : Shape := ⟨2, ![1, 128]⟩
abbrev S2000x128 : Shape := ⟨2, ![2000, 128]⟩
abbrev S640000x128 : Shape := ⟨2, ![640000, 128]⟩
abbrev S10000x50 : Shape := ⟨2, ![10000, 50]⟩
abbrev S10000x128 : Shape := ⟨2, ![10000, 128]⟩
abbrev S_ : Shape := ⟨0, ![]⟩
abbrev S640000x1 : Shape := ⟨2, ![640000, 1]⟩
abbrev S1 : Shape := ⟨1, ![1]⟩
abbrev S1x1 : Shape := ⟨2, ![1, 1]⟩

abbrev nBuf : Space → Nat
  | .hbm => 66
  | .vmem => 21
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000, .f32⟩
  | .hbm, ⟨3, _⟩ => ⟨S640000x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S20000x128, .f32⟩
  | .hbm, ⟨22, _⟩ => ⟨S640000x128, .bf16⟩
  | .hbm, ⟨23, _⟩ => ⟨S_, .f32⟩
  | .hbm, ⟨24, _⟩ => ⟨S640000, .f32⟩
  | .hbm, ⟨25, _⟩ => ⟨S640000, .f32⟩
  | .hbm, ⟨26, _⟩ => ⟨S640000, .f32⟩
  | .hbm, ⟨27, _⟩ => ⟨S_, .f32⟩
  | .hbm, ⟨28, _⟩ => ⟨S640000, .f32⟩
  | .hbm, ⟨29, _⟩ => ⟨S640000, .f32⟩
  | .hbm, ⟨30, _⟩ => ⟨S_, .f32⟩
  | .hbm, ⟨31, _⟩ => ⟨S640000, .f32⟩
  | .hbm, ⟨32, _⟩ => ⟨S640000, .f32⟩
  | .hbm, ⟨33, _⟩ => ⟨S640000x1, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S1, .i32⟩
  | .hbm, ⟨43, _⟩ => ⟨S_, .i32⟩
  | .hbm, ⟨44, _⟩ => ⟨S640000x1, .i32⟩
  | .hbm, ⟨45, _⟩ => ⟨S640000x1, .i1⟩
  | .hbm, ⟨46, _⟩ => ⟨S1x1, .i32⟩
  | .hbm, ⟨47, _⟩ => ⟨S640000x1, .i32⟩
  | .hbm, ⟨48, _⟩ => ⟨S640000x1, .i1⟩
  | .hbm, ⟨49, _⟩ => ⟨S640000x1, .i1⟩
  | .hbm, ⟨50, _⟩ => ⟨S_, .i1⟩
  | .hbm, ⟨51, _⟩ => ⟨S640000, .i1⟩
  | .hbm, ⟨52, _⟩ => ⟨S640000x128, .f32⟩
  | .hbm, ⟨53, _⟩ => ⟨S640000x128, .i1⟩
  | .hbm, ⟨54, _⟩ => ⟨S_, .f32⟩
  | .hbm, ⟨55, _⟩ => ⟨S640000x128, .f32⟩
  | .hbm, ⟨56, _⟩ => ⟨S640000x128, .f32⟩
  | .hbm, ⟨57, _⟩ => ⟨S640000x128, .f32⟩
  | .hbm, ⟨58, _⟩ => ⟨S640000x128, .f32⟩
  | .hbm, ⟨59, _⟩ => ⟨S640000x128, .f32⟩
  | .hbm, ⟨60, _⟩ => ⟨S640000x128, .f32⟩
  | .hbm, ⟨61, _⟩ => ⟨S_, .f32⟩
  | .hbm, ⟨62, _⟩ => ⟨S20000x128, .f32⟩
  | .hbm, ⟨63, _⟩ => ⟨S640000x1, .i32⟩
  | .hbm, ⟨64, _⟩ => ⟨S20000x128, .f32⟩
  | .hbm, ⟨65, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S10000x50, .f32⟩
  | .local _ .vmem, ⟨6, _⟩ => ⟨S10000x50, .f32⟩
  | .local _ .vmem, ⟨7, _⟩ => ⟨S50x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S10000x128, .bf16⟩
  | .local _ .vmem, ⟨12, _⟩ => ⟨S10000x128, .bf16⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_2 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x50_S10000x50_0_0 : ∀ a, (![0, 0] : Fin 2 → Nat) a + S10000x50.size a ≤ S10000x50.size a
  h_S10000x50 : 0 < S10000x50.numel
  inb_S50x128_S50x128_0_0 : ∀ a, (![0, 0] : Fin 2 → Nat) a + S50x128.size a ≤ S50x128.size a
  h_S50x128 : 0 < S50x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S640000 : S_.BroadcastsInDim S640000 (![] : Fin 0 → Fin S640000.rank)
  shapeCasts_S640000_S640000x1 : S640000.ShapeCasts S640000x1
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  shapeCasts_S2000x128_S2000x128 : S2000x128.ShapeCasts S2000x128
  broadcasts_S1x128_S2000x128 : S1x128.Broadcasts S2000x128
  dot_S2000x128_S128x128_S2000x128_1_0_0_1_n_n_wf : DotDims.WF S2000x128 S128x128 S2000x128 [1] [0] [0] [1] [] []
  dot_S10000x50_S50x128_S10000x128_1_0_0_1_n_n_wf : DotDims.WF S10000x50 S50x128 S10000x128 [1] [0] [0] [1] [] []
  dot_S10000x128_S128x128_S10000x128_1_0_0_1_n_n_wf : DotDims.WF S10000x128 S128x128 S10000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x50.size a ≤ S640000x50.size a
  hwx1_0 : ∀ i : grid1.Coords, EltTy.bits .f32 = 32 ∨ (Rect.block (s := S640000x50) S10000x50.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S50x128.size a ≤ S50x128.size a
  hwx1_1 : ∀ i : grid1.Coords, EltTy.bits .f32 = 32 ∨ (Rect.block (s := S50x128) S50x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S640000x128.size a
  hwx1_5 : ∀ i : grid1.Coords, EltTy.bits .bf16 = 32 ∨ (Rect.block (s := S640000x128) S10000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .f32 = 32 ∨ (Rect.block (s := S20000x128) S2000x128.size (cc2_transform_5 i) (hinb2_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S10000x50_S50x128_S10000x128_1_0_0_1_n_n : DotDims S10000x50 S50x128 S10000x128 where
  lhsContracting := [1]
  rhsContracting := [0]
  lhsNonContracting := [0]
  rhsNonContracting := [1]
  lhsBatch := []
  rhsBatch := []
  wf := dot_S10000x50_S50x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S10000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S50x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S640000 : Shape := ⟨1, ![640000]⟩
abbrev S640000x50 : Shape := ⟨2, ![640000, 50]⟩
abbrev S50x128 : Shape := ⟨2, ![50, 128]⟩
abbrev S128 : Shape := ⟨1, ![128]⟩
abbrev S128x128 : Shape := ⟨2, ![128, 128]⟩
abbrev S1x640000 : Shape := ⟨2, ![1, 640000]⟩
abbrev S_ : Shape := ⟨0, ![]⟩
abbrev S640000x128 : Shape := ⟨2, ![640000, 128]⟩
abbrev S1x128 : Shape := ⟨2, ![1, 128]⟩
abbrev S640000x1 : Shape := ⟨2, ![640000, 1]⟩

abbrev nBuf : Space → Nat
  | .hbm => 95
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000, .f32⟩
  | .hbm, ⟨3, _⟩ => ⟨S640000x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .f32⟩
  | .hbm, ⟨18, _⟩ => ⟨S640000, .f32⟩
  | .hbm, ⟨19, _⟩ => ⟨S640000, .f32⟩
  | .hbm, ⟨20, _⟩ => ⟨S640000, .f32⟩
  | .hbm, ⟨21, _⟩ => ⟨S_, .f32⟩
  | .hbm, ⟨22, _⟩ => ⟨S640000, .f32⟩
  | .hbm, ⟨23, _⟩ => ⟨S640000, .f32⟩
  | .hbm, ⟨24, _⟩ => ⟨S_, .f32⟩
  | .hbm, ⟨25, _⟩ => ⟨S640000, .f32⟩
  | .hbm, ⟨26, _⟩ => ⟨S640000, .f32⟩
  | .hbm, ⟨27, _⟩ => ⟨S640000x128, .f32⟩
  | .hbm, ⟨28, _⟩ => ⟨S1x128, .f32⟩
  | .hbm, ⟨29, _⟩ => ⟨S640000x128, .f32⟩
  | .hbm, ⟨30, _⟩ => ⟨S640000x128, .f32⟩
  | .hbm, ⟨31, _⟩ => ⟨S_, .f32⟩
  | .hbm, ⟨32, _⟩ => ⟨S640000x128, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S640000x128, .i1⟩
  | .hbm, ⟨37, _⟩ => ⟨S640000x128, .f32⟩
  | .hbm, ⟨38, _⟩ => ⟨S640000x128, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S640000x128, .f32⟩
  | .hbm, ⟨45, _⟩ => ⟨S_, .f32⟩
  | .hbm, ⟨46, _⟩ => ⟨S640000x128, .f32⟩
  | .hbm, ⟨47, _⟩ => ⟨S640000x128, .f32⟩
  | .hbm, ⟨48, _⟩ => ⟨S640000x128, .f32⟩
  | .hbm, ⟨49, _⟩ => ⟨S1x128, .f32⟩
  | .hbm, ⟨50, _⟩ => ⟨S640000x128, .f32⟩
  | .hbm, ⟨51, _⟩ => ⟨S640000x128, .f32⟩
  | .hbm, ⟨52, _⟩ => ⟨S640000x1, .f32⟩
  | .hbm, ⟨53, _⟩ => ⟨S640000x128, .f32⟩
  | .hbm, ⟨54, _⟩ => ⟨S640000x128, .f32⟩
  | .hbm, ⟨55, _⟩ => ⟨S20000x128, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x128, .f32⟩
  | .hbm, ⟨65, _⟩ => ⟨S640000x128, .f32⟩
  | .hbm, ⟨66, _⟩ => ⟨S_, .f32⟩
  | .hbm, ⟨67, _⟩ => ⟨S20000x128, .f32⟩
  | .hbm, ⟨68, _⟩ => ⟨S640000x1, .i32⟩
  | .hbm, ⟨69, _⟩ => ⟨S20000x128, .f32⟩
  | .hbm, ⟨70, _⟩ => ⟨S20000x128, .f32⟩
  | .hbm, ⟨71, _⟩ => ⟨S1x128, .f32⟩
  | .hbm, ⟨72, _⟩ => ⟨S20000x128, .f32⟩
  | .hbm, ⟨73, _⟩ => ⟨S20000x128, .f32⟩
  | .hbm, ⟨74, _⟩ => ⟨S_, .f32⟩
  | .hbm, ⟨75, _⟩ => ⟨S20000x128, .f32⟩
  | .hbm, ⟨76, _⟩ => ⟨S20000x128, .f32⟩
  | .hbm, ⟨77, _⟩ => ⟨S20000x128, .f32⟩
  | .hbm, ⟨78, _⟩ => ⟨S20000x128, .f32⟩
  | .hbm, ⟨79, _⟩ => ⟨S20000x128, .i1⟩
  | .hbm, ⟨80, _⟩ => ⟨S20000x128, .f32⟩
  | .hbm, ⟨81, _⟩ => ⟨S20000x128, .f32⟩
  | .hbm, ⟨82, _⟩ => ⟨S20000x128, .f32⟩
  | .hbm, ⟨83, _⟩ => ⟨S20000x128, .f32⟩
  | .hbm, ⟨84, _⟩ => ⟨S20000x128, .f32⟩
  | .hbm, ⟨85, _⟩ => ⟨S20000x128, .f32⟩
  | .hbm, ⟨86, _⟩ => ⟨S20000x128, .f32⟩
  | .hbm, ⟨87, _⟩ => ⟨S20000x128, .f32⟩
  | .hbm, ⟨88, _⟩ => ⟨S_, .f32⟩
  | .hbm, ⟨89, _⟩ => ⟨S20000x128, .f32⟩
  | .hbm, ⟨90, _⟩ => ⟨S20000x128, .f32⟩
  | .hbm, ⟨91, _⟩ => ⟨S20000x128, .f32⟩
  | .hbm, ⟨92, _⟩ => ⟨S1x128, .f32⟩
  | .hbm, ⟨93, _⟩ => ⟨S20000x128, .f32⟩
  | .hbm, ⟨94, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c : Ref sig .tc := ⟨.hbm, 56, rfl⟩
abbrev main_v26 : Ref sig .tc := ⟨.hbm, 57, rfl⟩
abbrev main_v27 : Ref sig .tc := ⟨.hbm, 58, rfl⟩
abbrev main_c_3 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_4 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_v41 : Ref sig .tc := ⟨.hbm, 87, rfl⟩
abbrev main_cst_5 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  bcast_S1x128_S20000x128_0_1 : S1x128.BroadcastsInDim S20000x128 (![0, 1] : Fin 2 → Fin S20000x128.rank)
  dot_S640000x50_S50x128_S640000x128_1_0_0_1_n_n_wf : DotDims.WF S640000x50 S50x128 S640000x128 [1] [0] [0] [1] [] []
  dot_S640000x128_S128x128_S640000x128_1_0_0_1_n_n_wf : DotDims.WF S640000x128 S128x128 S640000x128 [1] [0] [0] [1] [] []
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1

variable [Facts₀]

def dot_S640000x50_S50x128_S640000x128_1_0_0_1_n_n : DotDims S640000x50 S50x128 S640000x128 where
  lhsContracting := [1]
  rhsContracting := [0]
  lhsNonContracting := [0]
  rhsNonContracting := [1]
  lhsBatch := []
  rhsBatch := []
  wf := dot_S640000x50_S50x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.LibPlainDot.lean ====
/-
  A plain matrix product read at an index, at the ideal instance.

  For the dimension numbers of an M×K by K×N product with nothing batched (the contraction runs over the left
  operand's columns and the right operand's rows), both the vector unit's product into a zero accumulator and the
  host's `dot_general` are, at row `p` and column `q`, the sum over `k` of `lhs (p, k) * rhs (k, q)` on the extended
  reals. The statements take any record `d` that equals `DotDims.plain M K N`, so a printed record of a program is
  used through one `rfl`.
-/
import Idealize.ShloMosaic.PureOps.Ideal.Laws
import Idealize.ShloMosaic.Lib.ValueIdx

namespace Idealize.ShloMosaic.PlainDot

open Idealize.ShloMosaic Idealize.ShloMosaic.ValueIdx

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The vector unit's product of a plain M×K by K×N pair into the zero accumulator, at `(p, q)`: the sum over the
    contracted axis. -/
theorem matmul_zero_apply {φ₁ φ₂ : FTy} (d : DotDims ⟨2, ![M, K]⟩ ⟨2, ![K, N]⟩ ⟨2, ![M, N]⟩) (hd : d = DotDims.plain M K N)
    (prec : Option ContractPrecision) (lhs : FVec Ideal ⟨2, ![M, K]⟩ φ₁) (rhs : FVec Ideal ⟨2, ![K, N]⟩ φ₂)
    (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of a plain M×K by K×N pair, at `(p, q)`: the same sum. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  subst hd
  rw [Ideal.dotGeneral_apply, ← Equiv.sum_comp (contrEquiv1 (DotDims.plain M K N) K rfl rfl).symm]
  refine Finset.sum_congr rfl fun k _ => ?_
  rw [lhsIdx_plain, rhsIdx_plain]

end Idealize.ShloMosaic.PlainDot
-- ==== Proof.RegionProj.lean ====
/-
  The first pallas_call: the node projection h = x · lin1_w, block of 2000 rows by block.

  At the ideal instance the body's one store holds, at row p and column q of the block, the sum over k of
  x_block (p, k) * w (k, q) (the two bf16 roundings are the identity there). Block t of the input is rows
  2000 t … 2000 t + 1999 of x, the weight window is the whole weight matrix at every point, and block t of the
  output is the same rows of the result; the ten blocks tile the 20000 rows. So after the region the result array
  is, at (r, q), the sum over k of x (r, k) * w (k, q), whatever the contents the region was entered with.
-/
import proofs.«428623_j21354577395850_3_alg».proof.Proof.Gen.KernelIdeal.Frame
import proofs.«428623_j21354577395850_3_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

/-- The projected node table as one function of the node features and the weight: row r, column q is the sum over
    k of x (r, k) * w (k, q). -/
def projArr (x : S20000x128.Idx → EReal) (w : S128x128.Idx → EReal) : S20000x128.Idx → EReal :=
  fun i => ∑ k : Fin 128, x (ix2 (i 0) k) * w (ix2 k (i 1))

theorem hz : (![0, 0] : Fin 2 → Nat) = fun _ => 0 := funext fun a => by fin_cases a <;> rfl

/-- The body's payload at row p, column q of its block: the product's sum over the 128 contracted columns. -/
theorem payload_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  exact PlainDot.matmul_zero_apply dot_S2000x128_S128x128_S2000x128_1_0_0_1_n_n rfl none _ _ p q

variable (V : (c : Dev nD) → (b : Ref sig .tc) → Buf (Elt Ideal) ((c : Thread nD τ).loc b))

/-- The printed index maps over the grid: the row-blocked windows are at block (t, 0), the weight window at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 10 := by
  have h : t.val < cfg0.N := t.isLt
  have hN : cfg0.N = 10 := N_0
  omega

/-- Block t of the node features is rows 2000 t … 2000 t + 1999 of the array. -/
theorem xblk_apply (c : Dev nD) (t : Fin cfg0.N) (p : Fin 2000) (k : Fin 128) :
    (iblk0 V c 0 t : Vec Ideal S2000x128 .f32) (ix2 p k)
      = (V c main_arg0 : S20000x128.Idx → EReal) (ix2 ⟨2000 * t.val + p.val, by have := t_lt t; have := p.isLt; omega⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The weight window's block is the whole weight matrix at every point. -/
theorem wblk_apply (c : Dev nD) (t : Fin cfg0.N) (k : Fin 128) (q : Fin 128) :
    (iblk0 V c 1 t : Vec Ideal S128x128 .f32) (ix2 k q) = (V c main_arg8 : S128x128.Idx → EReal) (ix2 k q) := by
  obtain ⟨-, -, e2, e3, -⟩ := idx_facts t
  unfold iblk0
  rw [View.read_apply]
  show V c main_arg8 _ = V c main_arg8 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of `projArr` of the arrays as the region finds them. -/
theorem flushed_eq (c : Dev nD) (t : Fin cfg0.N) :
    (dat0 V c).flushed 2 t = ((cfg0.win 2).blk t).view.read (Elt Ideal) (projArr (V c main_arg0) (V c main_arg8)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q) = projArr (V c main_arg0) (V c main_arg8) (((cfg0.win 2).blk t).view.emb (ix2 p q))
  refine (payload_apply (iblk0 V c 0 t) (iblk0 V c 1 t) p q).trans ?_
  unfold projArr
  refine Finset.sum_congr rfl fun k _ => ?_
  rw [xblk_apply V c t p k, wblk_apply V c t k q]
  have h0 : ((((cfg0.win 2).blk t).view.emb (ix2 p q)) 0).val = 2000 * t.val + p.val := by
    show win0_2.index t (0 : Fin 2) * 2000 + 1 * p.val = _; rw [e4]; omega
  have h1 : ((((cfg0.win 2).blk t).view.emb (ix2 p q)) 1).val = q.val := by
    show win0_2.index t (1 : Fin 2) * 128 + 1 * q.val = _; rw [e5]; omega
  congr 2
  · funext a; apply Fin.ext
    match a with
    | ⟨0, _⟩ => exact h0.symm
    | ⟨1, _⟩ => rfl
  · funext a; apply Fin.ext
    match a with
    | ⟨0, _⟩ => rfl
    | ⟨1, _⟩ => exact h1.symm

/-- An index of the result array is in point t's block iff each coordinate is in the block's range on its axis. -/
theorem mem_blk (t : Fin cfg0.N) (i : S20000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v8).slice (win0_2.rect t)).set ↔ _
  rw [View.set_slice_whole, Rect.mem_set_unit]
  exact Iff.rfl

/-- Every row of the result lies in the block of the point numbered by the row's quotient by 2000. -/
theorem cover (i : S20000x128.Idx) : ∃ t : Fin cfg0.N, (cfg0.win 2).flush t = true ∧ i ∈ ((cfg0.win 2).blk t).view.set := by
  have hi0 : (i 0).val < 20000 := (i 0).isLt
  have hi1 : (i 1).val < 128 := (i 1).isLt
  let t : Fin cfg0.N := ⟨(i 0).val / 2000, by rw [show cfg0.N = 10 from N_0]; omega⟩
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4]; show (i 0).val / 2000 * 2000 ≤ (i 0).val ∧ (i 0).val < (i 0).val / 2000 * 2000 + 2000; omega
  | ⟨1, _⟩ => show win0_2.index t (1 : Fin 2) * 128 ≤ (i 1).val ∧ (i 1).val < win0_2.index t (1 : Fin 2) * 128 + 128; rw [e5]; omega

/-- The result array after the region: the projection of the node features the region was entered with. -/
theorem final (c : Dev nD) : (dat0 V c).arrAt 2 cfg0.N = projArr (V c main_arg0) (V c main_arg8) :=
  (dat0 V c).arrAt_eq_of_cover 2 (projArr (V c main_arg0) (V c main_arg8)) (fun t _ => flushed_eq V c t) cover

end Cert.KernelIdeal.Proj

end
-- ==== Proof.Spec.lean ====
/-
  The pointwise and row-wise functions both programs compute, on the extended reals.

  `ssp v` is the shifted softplus in the guarded form both programs print: with d = v − 0, the value is v + 0 where
  d ≠ d (never, on a linear order) and max(v, 0) + log1p(exp(0 − |d|)) elsewhere, minus the f32 word of log 2.
  The reference prints −|d| where the kernel prints 0 − |d|; the two agree because 0 − a = −a.
  `mlpRow` is one row of a two-layer map: the hidden entry k is ssp(Σ a·w1 + b1 k), the output entry q is
  Σ hidden·w2 + b2 q. The edge-filter network (50 inputs) and the node tail (128 inputs) are both instances.
-/
import Idealize.ShloMosaic.PureOps.Ideal
import Idealize.ShloMosaic.PureOps.Ideal.Laws
import Idealize.ShloMosaic.Lib.ValueIdx
import Idealize.ShloMosaic.Lib.Pipeline.Value

noncomputable section

namespace Cert.Interaction

open Idealize.ShloMosaic Idealize.ShloMosaic.ValueIdx

/-- The f32 zero word at the ideal instance. -/
abbrev z32 : EReal := Ideal.ofBits .f32 0x00000000#32

/-- The f32 word of log 2 at the ideal instance (the same word in both programs; never evaluated). -/
abbrev ln2w : EReal := Ideal.ofBits .f32 0x3F317218#32

/-- Shifted softplus in the kernel's printed form. -/
def ssp (v : EReal) : EReal :=
  Scalar.select (Ideal.cmp .one (v - z32) (v - z32)) (v + z32)
    (max v z32 + Ideal.log1p (Ideal.exp (z32 - max (v - z32) (-(v - z32))))) - ln2w

/-- The reference's printed form of the same function: the guard is the unordered twin of the kernel's, and the
    exponent is the negation of |d| instead of its difference from zero. -/
theorem ssp_ref (v : EReal) :
    Scalar.select (Ideal.cmp .une (v - z32) (v - z32)) (v + z32)
      (max v z32 + Ideal.log1p (Ideal.exp (-(max (v - z32) (-(v - z32)))))) - ln2w = ssp v := by
  unfold ssp
  have hz : z32 = 0 := Ideal.ofBits_zero_f32
  have e : z32 - max (v - z32) (-(v - z32)) = -(max (v - z32) (-(v - z32))) := by rw [hz, zero_sub]
  rw [e]
  rfl

/-- One row of a two-layer map with the shifted softplus between the layers. -/
def mlpRow {K : Nat} (a : Fin K → EReal) (w1 : Fin K → Fin 128 → EReal) (b1 : Fin 128 → EReal)
    (w2 : Fin 128 → Fin 128 → EReal) (b2 : Fin 128 → EReal) (q : Fin 128) : EReal :=
  (∑ k : Fin 128, ssp ((∑ k' : Fin K, a k' * w1 k' k) + b1 k) * w2 k q) + b2 q

/-- A bias row [1, 128] broadcast down n rows reads, at row p and column q, the row's entry q. -/
theorem biasRow_apply {α : Type} {n : Nat} (x : (⟨2, ![1, 128]⟩ : Shape).Idx → α)
    (h : (⟨2, ![1, 128]⟩ : Shape).Broadcasts ⟨2, ![n, 128]⟩) (p : Fin n) (q : Fin 128) :
    broadcastTo ⟨2, ![n, 128]⟩ x h (ix2 p q) = x (ix2 0 q) :=
  broadcastTo_apply x h (ix2 p q) (ix2 0 q) fun a => by
    match a with
    | ⟨0, _⟩ => rfl
    | ⟨1, _⟩ => rfl

end Cert.Interaction

end
-- ==== Proof.RegionFilter.lean ====
/-
  The second pallas_call: the edge-filter network W = ssp(ea · w1 + b1) · w2 + b2, block of 10000 edges by block.

  At the ideal instance the body's one store holds, at row p and column q of the block, one row of the two-layer map
  (`mlpRow`) of the block's row p of edge attributes; the bf16 roundings of the operands, of the hidden layer and of
  the result are the identity there. Block t of the edge attributes is rows 10000 t … 10000 t + 9999, the four
  parameter windows are whole arrays at every point, and block t of the output is the same rows of the result; the
  64 blocks tile the 640000 rows. So after the region the result array is, row by row, `mlpRow` of the edge
  attributes' row, whatever the contents the region was entered with.
-/
import proofs.«428623_j21354577395850_3_alg».proof.Proof.Gen.KernelIdeal.Frame
import proofs.«428623_j21354577395850_3_alg».proof.Proof.LibPlainDot
import proofs.«428623_j21354577395850_3_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Filter

open Cert.KernelIdeal Cert.KernelIdeal.Gen Cert.Interaction

/-- The filter table as one function of the edge attributes and the network's parameters, row by row. -/
def filterArr (ea : S640000x50.Idx → EReal) (w1 : S50x128.Idx → EReal) (b1 : S1x128.Idx → EReal)
    (w2 : S128x128.Idx → EReal) (b2 : S1x128.Idx → EReal) : S640000x128.Idx → EReal :=
  fun i => mlpRow (fun k' => ea (ix2 (i 0) k')) (fun k' k => w1 (ix2 k' k)) (fun k => b1 (ix2 0 k))
    (fun k q => w2 (ix2 k q)) (fun q => b2 (ix2 0 q)) (i 1)

theorem hz : (![0, 0] : Fin 2 → Nat) = fun _ => 0 := funext fun a => by fin_cases a <;> rfl

/-- The hidden layer before the activation, at row p and hidden unit k: the first product's sum plus the bias. -/
theorem pre_apply (x0 : Vec Ideal S10000x50 .f32) (x1 : Vec Ideal S50x128 .f32) (x2 : Vec Ideal S1x128 .f32) (p : Fin 10000) (k : Fin 128) :
    addf (F := Ideal) (matmul (F := Ideal) dot_S10000x50_S50x128_S10000x128_1_0_0_1_n_n none (truncf (F := Ideal) .bf16 x0 bitsLt_bf16_f32) (truncf (F := Ideal) .bf16 x1 bitsLt_bf16_f32) (constant (F := Ideal) S10000x128 .f32 0x00000000#32))
      (broadcastTo S10000x128 x2 broadcasts_S1x128_S10000x128) (ix2 p k)
    = (∑ k' : Fin 50, x0 (ix2 p k') * x1 (ix2 k' k)) + x2 (ix2 0 k) := by
  show FloatOps.matmul (F := Ideal) dot_S10000x50_S50x128_S10000x128_1_0_0_1_n_n none (truncf (F := Ideal) .bf16 x0 bitsLt_bf16_f32) (truncf (F := Ideal) .bf16 x1 bitsLt_bf16_f32) (constant (F := Ideal) S10000x128 .f32 0x00000000#32) (ix2 p k)
      + broadcastTo S10000x128 x2 broadcasts_S1x128_S10000x128 (ix2 p k) = _
  rw [PlainDot.matmul_zero_apply dot_S10000x50_S50x128_S10000x128_1_0_0_1_n_n rfl none _ _ p k, biasRow_apply]
  rfl

/-- The body's payload at row p, column q of its block: one row of the two-layer map. -/
theorem payload_apply (x0 : Vec Ideal S10000x50 .f32) (x1 : Vec Ideal S50x128 .f32) (x2 : Vec Ideal S1x128 .f32)
    (x3 : Vec Ideal S128x128 .f32) (x4 : Vec Ideal S1x128 .f32) (p : Fin 10000) (q : Fin 128) :
    k1_pay1 (F := Ideal) x0 x1 x2 x3 x4 (ix2 p q)
      = mlpRow (fun k' => x0 (ix2 p k')) (fun k' k => x1 (ix2 k' k)) (fun k => x2 (ix2 0 k))
          (fun k q => x3 (ix2 k q)) (fun q => x4 (ix2 0 q)) q := by
  unfold k1_pay1
  simp only [shapeCast_self]
  show FloatOps.matmul (F := Ideal) dot_S10000x128_S128x128_S10000x128_1_0_0_1_n_n none _ (truncf (F := Ideal) .bf16 x3 bitsLt_bf16_f32) (constant (F := Ideal) S10000x128 .f32 0x00000000#32) (ix2 p q)
      + broadcastTo S10000x128 x4 broadcasts_S1x128_S10000x128 (ix2 p q) = _
  rw [PlainDot.matmul_zero_apply dot_S10000x128_S128x128_S10000x128_1_0_0_1_n_n rfl none _ _ p q, biasRow_apply]
  unfold mlpRow
  congr 1
  refine Finset.sum_congr rfl fun k _ => ?_
  congr 1
  exact congrArg ssp (pre_apply x0 x1 x2 p k)

variable (V : (c : Dev nD) → (b : Ref sig .tc) → Buf (Elt Ideal) ((c : Thread nD τ).loc b))

/-- The printed index maps over the grid: the row-blocked windows are at block (t, 0), the parameter windows at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 64 := by
  have h : t.val < cfg1.N := t.isLt
  have hN : cfg1.N = 64 := N_1
  omega

/-- Block t of the edge attributes is rows 10000 t … 10000 t + 9999 of the array. -/
theorem eablk_apply (c : Dev nD) (t : Fin cfg1.N) (p : Fin 10000) (k : Fin 50) :
    (iblk1 V c 0 t : Vec Ideal S10000x50 .f32) (ix2 p k)
      = (V c main_arg3 : S640000x50.Idx → EReal) (ix2 ⟨10000 * t.val + p.val, by have := t_lt t; have := p.isLt; omega⟩ k) := by
  obtain ⟨e0, e1, -⟩ := idx_facts t
  unfold iblk1
  rw [View.read_apply]
  show V c main_arg3 _ = V c main_arg3 _
  congr 1
  funext a
  apply Fin.ext
  match a with
  | ⟨0, _⟩ => show win1_0.index t (0 : Fin 2) * 10000 + 1 * p.val = 10000 * t.val + p.val; rw [e0]; omega
  | ⟨1, _⟩ => show win1_0.index t (1 : Fin 2) * 50 + 1 * k.val = k.val; rw [e1]; omega

/-- The first weight's window is the whole matrix at every point. -/
theorem w1blk_apply (c : Dev nD) (t : Fin cfg1.N) (k' : Fin 50) (k : Fin 128) :
    (iblk1 V c 1 t : Vec Ideal S50x128 .f32) (ix2 k' k) = (V c main_arg4 : S50x128.Idx → EReal) (ix2 k' k) := by
  obtain ⟨-, -, e2, e3, -⟩ := idx_facts t
  unfold iblk1
  rw [View.read_apply]
  show V c main_arg4 _ = V c main_arg4 _
  congr 1
  funext a
  apply Fin.ext
  match a with
  | ⟨0, _⟩ => show win1_1.index t (0 : Fin 2) * 50 + 1 * k'.val = k'.val; rw [e2]; omega
  | ⟨1, _⟩ => show win1_1.index t (1 : Fin 2) * 128 + 1 * k.val = k.val; rw [e3]; omega

/-- The first bias's window is the whole row at every point. -/
theorem b1blk_apply (c : Dev nD) (t : Fin cfg1.N) (k : Fin 128) :
    (iblk1 V c 2 t : Vec Ideal S1x128 .f32) (ix2 0 k) = (V c main_v4 : S1x128.Idx → EReal) (ix2 0 k) := by
  obtain ⟨-, -, -, -, e4, e5, -⟩ := idx_facts t
  unfold iblk1
  rw [View.read_apply]
  show V c main_v4 _ = V c main_v4 _
  congr 1
  funext a
  apply Fin.ext
  match a with
  | ⟨0, _⟩ => show win1_2.index t (0 : Fin 2) * 1 + 1 * 0 = 0; rw [e4]
  | ⟨1, _⟩ => show win1_2.index t (1 : Fin 2) * 128 + 1 * k.val = k.val; rw [e5]; omega

/-- The second weight's window is the whole matrix at every point. -/
theorem w2blk_apply (c : Dev nD) (t : Fin cfg1.N) (k : Fin 128) (q : Fin 128) :
    (iblk1 V c 3 t : Vec Ideal S128x128 .f32) (ix2 k q) = (V c main_arg6 : S128x128.Idx → EReal) (ix2 k q) := by
  obtain ⟨-, -, -, -, -, -, e6, e7, -⟩ := idx_facts t
  unfold iblk1
  rw [View.read_apply]
  show V c main_arg6 _ = V c main_arg6 _
  congr 1
  funext a
  apply Fin.ext
  match a with
  | ⟨0, _⟩ => show win1_3.index t (0 : Fin 2) * 128 + 1 * k.val = k.val; rw [e6]; omega
  | ⟨1, _⟩ => show win1_3.index t (1 : Fin 2) * 128 + 1 * q.val = q.val; rw [e7]; omega

/-- The second bias's window is the whole row at every point. -/
theorem b2blk_apply (c : Dev nD) (t : Fin cfg1.N) (q : Fin 128) :
    (iblk1 V c 4 t : Vec Ideal S1x128 .f32) (ix2 0 q) = (V c main_v5 : S1x128.Idx → EReal) (ix2 0 q) := by
  obtain ⟨-, -, -, -, -, -, -, -, e8, e9, -⟩ := idx_facts t
  unfold iblk1
  rw [View.read_apply]
  show V c main_v5 _ = V c main_v5 _
  congr 1
  funext a
  apply Fin.ext
  match a with
  | ⟨0, _⟩ => show win1_4.index t (0 : Fin 2) * 1 + 1 * 0 = 0; rw [e8]
  | ⟨1, _⟩ => show win1_4.index t (1 : Fin 2) * 128 + 1 * q.val = q.val; rw [e9]; omega

/-- What point t writes back is block t of `filterArr` of the arrays as the region finds them. -/
theorem flushed_eq (c : Dev nD) (t : Fin cfg1.N) :
    (dat1 V c).flushed 5 t = ((cfg1.win 5).blk t).view.read (Elt Ideal)
      (filterArr (V c main_arg3) (V c main_arg4) (V c main_v4) (V c main_arg6) (V c main_v5)) := by
  obtain ⟨-, -, -, -, -, -, -, -, -, -, e10, e11⟩ := idx_facts t
  show (cfg1.win 5).cut (grid1.coords t) ((dat1 V c).after 5 t) = _
  rw [after1_5]
  unfold out1_5
  rw [View.canon_unit_zero hz]
  simp only [View.ld_unit_zero (S := S10000x50) hz, View.ld_unit_zero (S := S50x128) hz, View.ld_unit_zero (S := S1x128) hz,
    View.ld_unit_zero (S := S128x128) hz]
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = filterArr (V c main_arg3) (V c main_arg4) (V c main_v4) (V c main_arg6) (V c main_v5) (((cfg1.win 5).blk t).view.emb (ix2 p q))
  refine (payload_apply (iblk1 V c 0 t) (iblk1 V c 1 t) (iblk1 V c 2 t) (iblk1 V c 3 t) (iblk1 V c 4 t) p q).trans ?_
  have h0 : ((((cfg1.win 5).blk t).view.emb (ix2 p q)) 0).val = 10000 * t.val + p.val := by
    show win1_5.index t (0 : Fin 2) * 10000 + 1 * p.val = _; rw [e10]; omega
  have h1 : ((((cfg1.win 5).blk t).view.emb (ix2 p q)) 1).val = q.val := by
    show win1_5.index t (1 : Fin 2) * 128 + 1 * q.val = _; rw [e11]; omega
  have hrow : (((cfg1.win 5).blk t).view.emb (ix2 p q)) 0 = (⟨10000 * t.val + p.val, by have := t_lt t; have := p.isLt; omega⟩ : Fin 640000) := Fin.ext h0
  have hcol : (((cfg1.win 5).blk t).view.emb (ix2 p q)) 1 = q := Fin.ext h1
  unfold filterArr
  rw [hrow, hcol]
  congr 1
  · funext k'; exact eablk_apply V c t p k'
  · funext k' k; exact w1blk_apply V c t k' k
  · funext k; exact b1blk_apply V c t k
  · funext k q'; exact w2blk_apply V c t k q'
  · funext q'; exact b2blk_apply V c t q'

/-- An index of the result array is in point t's block iff each coordinate is in the block's range on its axis. -/
theorem mem_blk (t : Fin cfg1.N) (i : S640000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v9).slice (win1_5.rect t)).set ↔ _
  rw [View.set_slice_whole, Rect.mem_set_unit]
  exact Iff.rfl

/-- Every row of the result lies in the block of the point numbered by the row's quotient by 10000. -/
theorem cover (i : S640000x128.Idx) : ∃ t : Fin cfg1.N, (cfg1.win 5).flush t = true ∧ i ∈ ((cfg1.win 5).blk t).view.set := by
  have hi0 : (i 0).val < 640000 := (i 0).isLt
  have hi1 : (i 1).val < 128 := (i 1).isLt
  let t : Fin cfg1.N := ⟨(i 0).val / 10000, by rw [show cfg1.N = 64 from N_1]; omega⟩
  obtain ⟨-, -, -, -, -, -, -, -, -, -, e10, e11⟩ := idx_facts t
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; rw [e10]; show (i 0).val / 10000 * 10000 ≤ (i 0).val ∧ (i 0).val < (i 0).val / 10000 * 10000 + 10000; omega
  | ⟨1, _⟩ => show win1_5.index t (1 : Fin 2) * 128 ≤ (i 1).val ∧ (i 1).val < win1_5.index t (1 : Fin 2) * 128 + 128; rw [e11]; omega

/-- The result array after the region: the filter network of the edge attributes the region was entered with. -/
theorem final (c : Dev nD) : (dat1 V c).arrAt 5 cfg1.N
    = filterArr (V c main_arg3) (V c main_arg4) (V c main_v4) (V c main_arg6) (V c main_v5) :=
  (dat1 V c).arrAt_eq_of_cover 5 (filterArr (V c main_arg3) (V c main_arg4) (V c main_v4) (V c main_arg6) (V c main_v5))
    (fun t _ => flushed_eq V c t) cover

end Cert.KernelIdeal.Filter

end
-- ==== Proof.RegionTail.lean ====
/-
  The third pallas_call: the node tail out = ssp(agg · lin2_w + lin2_b) · lin_w + lin_b, block of 2000 nodes by block.

  At the ideal instance the body's one store holds, at row p and column q of the block, one row of the two-layer map
  (`mlpRow`) of the block's row p of aggregated messages (the bf16 roundings are the identity there). Block t of the
  aggregate is rows 2000 t … 2000 t + 1999, the four parameter windows are whole arrays at every point, and block t of
  the output is the same rows of the result; the ten blocks tile the 20000 rows. So after the region the result
  array is, row by row, `mlpRow` of the aggregate's row, whatever the contents the region was entered with.
-/
import proofs.«428623_j21354577395850_3_alg».proof.Proof.Gen.KernelIdeal.Frame
import proofs.«428623_j21354577395850_3_alg».proof.Proof.LibPlainDot
import proofs.«428623_j21354577395850_3_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.Interaction

/-- The block's output as one function of the aggregated messages and the tail's parameters, row by row. -/
def tailArr (agg : S20000x128.Idx → EReal) (w1 : S128x128.Idx → EReal) (b1 : S1x128.Idx → EReal)
    (w2 : S128x128.Idx → EReal) (b2 : S1x128.Idx → EReal) : S20000x128.Idx → EReal :=
  fun i => mlpRow (fun k' => agg (ix2 (i 0) k')) (fun k' k => w1 (ix2 k' k)) (fun k => b1 (ix2 0 k))
    (fun k q => w2 (ix2 k q)) (fun q => b2 (ix2 0 q)) (i 1)

theorem hz : (![0, 0] : Fin 2 → Nat) = fun _ => 0 := funext fun a => by fin_cases a <;> rfl

/-- The hidden layer before the activation, at row p and hidden unit k: the first product's sum plus the bias. -/
theorem pre_apply (x0 : Vec Ideal S2000x128 .f32) (x1 : Vec Ideal S128x128 .f32) (x2 : Vec Ideal S1x128 .f32) (p : Fin 2000) (k : Fin 128) :
    addf (F := Ideal) (matmul (F := Ideal) dot_S2000x128_S128x128_S2000x128_1_0_0_1_n_n none (truncf (F := Ideal) .bf16 x0 bitsLt_bf16_f32) (truncf (F := Ideal) .bf16 x1 bitsLt_bf16_f32) (constant (F := Ideal) S2000x128 .f32 0x00000000#32))
      (broadcastTo S2000x128 x2 broadcasts_S1x128_S2000x128) (ix2 p k)
    = (∑ k' : Fin 128, x0 (ix2 p k') * x1 (ix2 k' k)) + x2 (ix2 0 k) := by
  show FloatOps.matmul (F := Ideal) dot_S2000x128_S128x128_S2000x128_1_0_0_1_n_n none (truncf (F := Ideal) .bf16 x0 bitsLt_bf16_f32) (truncf (F := Ideal) .bf16 x1 bitsLt_bf16_f32) (constant (F := Ideal) S2000x128 .f32 0x00000000#32) (ix2 p k)
      + broadcastTo S2000x128 x2 broadcasts_S1x128_S2000x128 (ix2 p k) = _
  rw [PlainDot.matmul_zero_apply dot_S2000x128_S128x128_S2000x128_1_0_0_1_n_n rfl none _ _ p k, biasRow_apply]
  rfl

/-- The body's payload at row p, column q of its block: one row of the two-layer map. -/
theorem payload_apply (x0 : Vec Ideal S2000x128 .f32) (x1 : Vec Ideal S128x128 .f32) (x2 : Vec Ideal S1x128 .f32)
    (x3 : Vec Ideal S128x128 .f32) (x4 : Vec Ideal S1x128 .f32) (p : Fin 2000) (q : Fin 128) :
    k2_pay1 (F := Ideal) x0 x1 x2 x3 x4 (ix2 p q)
      = mlpRow (fun k' => x0 (ix2 p k')) (fun k' k => x1 (ix2 k' k)) (fun k => x2 (ix2 0 k))
          (fun k q => x3 (ix2 k q)) (fun q => x4 (ix2 0 q)) q := by
  unfold k2_pay1
  simp only [shapeCast_self]
  show FloatOps.matmul (F := Ideal) dot_S2000x128_S128x128_S2000x128_1_0_0_1_n_n none _ (truncf (F := Ideal) .bf16 x3 bitsLt_bf16_f32) (constant (F := Ideal) S2000x128 .f32 0x00000000#32) (ix2 p q)
      + broadcastTo S2000x128 x4 broadcasts_S1x128_S2000x128 (ix2 p q) = _
  rw [PlainDot.matmul_zero_apply dot_S2000x128_S128x128_S2000x128_1_0_0_1_n_n rfl none _ _ p q, biasRow_apply]
  unfold mlpRow
  congr 1
  refine Finset.sum_congr rfl fun k _ => ?_
  congr 1
  exact congrArg ssp (pre_apply x0 x1 x2 p k)

variable (V : (c : Dev nD) → (b : Ref sig .tc) → Buf (Elt Ideal) ((c : Thread nD τ).loc b))

/-- The printed index maps over the grid: the row-blocked windows are at block (t, 0), the parameter windows at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 10 := by
  have h : t.val < cfg2.N := t.isLt
  have hN : cfg2.N = 10 := N_2
  omega

/-- Block t of the aggregated messages is rows 2000 t … 2000 t + 1999 of the array. -/
theorem aggblk_apply (c : Dev nD) (t : Fin cfg2.N) (p : Fin 2000) (k : Fin 128) :
    (iblk2 V c 0 t : Vec Ideal S2000x128 .f32) (ix2 p k)
      = (V c main_v25 : S20000x128.Idx → EReal) (ix2 ⟨2000 * t.val + p.val, by have := t_lt t; have := p.isLt; omega⟩ k) := by
  obtain ⟨e0, e1, -⟩ := idx_facts t
  unfold iblk2
  rw [View.read_apply]
  show V c main_v25 _ = V c main_v25 _
  congr 1
  funext a
  apply Fin.ext
  match a with
  | ⟨0, _⟩ => show win2_0.index t (0 : Fin 2) * 2000 + 1 * p.val = 2000 * t.val + p.val; rw [e0]; omega
  | ⟨1, _⟩ => show win2_0.index t (1 : Fin 2) * 128 + 1 * k.val = k.val; rw [e1]; omega

/-- The first weight's window is the whole matrix at every point. -/
theorem w1blk_apply (c : Dev nD) (t : Fin cfg2.N) (k' : Fin 128) (k : Fin 128) :
    (iblk2 V c 1 t : Vec Ideal S128x128 .f32) (ix2 k' k) = (V c main_arg9 : S128x128.Idx → EReal) (ix2 k' k) := by
  obtain ⟨-, -, e2, e3, -⟩ := idx_facts t
  unfold iblk2
  rw [View.read_apply]
  show V c main_arg9 _ = V c main_arg9 _
  congr 1
  funext a
  apply Fin.ext
  match a with
  | ⟨0, _⟩ => show win2_1.index t (0 : Fin 2) * 128 + 1 * k'.val = k'.val; rw [e2]; omega
  | ⟨1, _⟩ => show win2_1.index t (1 : Fin 2) * 128 + 1 * k.val = k.val; rw [e3]; omega

/-- The first bias's window is the whole row at every point. -/
theorem b1blk_apply (c : Dev nD) (t : Fin cfg2.N) (k : Fin 128) :
    (iblk2 V c 2 t : Vec Ideal S1x128 .f32) (ix2 0 k) = (V c main_v6 : S1x128.Idx → EReal) (ix2 0 k) := by
  obtain ⟨-, -, -, -, e4, e5, -⟩ := idx_facts t
  unfold iblk2
  rw [View.read_apply]
  show V c main_v6 _ = V c main_v6 _
  congr 1
  funext a
  apply Fin.ext
  match a with
  | ⟨0, _⟩ => show win2_2.index t (0 : Fin 2) * 1 + 1 * 0 = 0; rw [e4]
  | ⟨1, _⟩ => show win2_2.index t (1 : Fin 2) * 128 + 1 * k.val = k.val; rw [e5]; omega

/-- The second weight's window is the whole matrix at every point. -/
theorem w2blk_apply (c : Dev nD) (t : Fin cfg2.N) (k : Fin 128) (q : Fin 128) :
    (iblk2 V c 3 t : Vec Ideal S128x128 .f32) (ix2 k q) = (V c main_arg11 : S128x128.Idx → EReal) (ix2 k q) := by
  obtain ⟨-, -, -, -, -, -, e6, e7, -⟩ := idx_facts t
  unfold iblk2
  rw [View.read_apply]
  show V c main_arg11 _ = V c main_arg11 _
  congr 1
  funext a
  apply Fin.ext
  match a with
  | ⟨0, _⟩ => show win2_3.index t (0 : Fin 2) * 128 + 1 * k.val = k.val; rw [e6]; omega
  | ⟨1, _⟩ => show win2_3.index t (1 : Fin 2) * 128 + 1 * q.val = q.val; rw [e7]; omega

/-- The second bias's window is the whole row at every point. -/
theorem b2blk_apply (c : Dev nD) (t : Fin cfg2.N) (q : Fin 128) :
    (iblk2 V c 4 t : Vec Ideal S1x128 .f32) (ix2 0 q) = (V c main_v7 : S1x128.Idx → EReal) (ix2 0 q) := by
  obtain ⟨-, -, -, -, -, -, -, -, e8, e9, -⟩ := idx_facts t
  unfold iblk2
  rw [View.read_apply]
  show V c main_v7 _ = V c main_v7 _
  congr 1
  funext a
  apply Fin.ext
  match a with
  | ⟨0, _⟩ => show win2_4.index t (0 : Fin 2) * 1 + 1 * 0 = 0; rw [e8]
  | ⟨1, _⟩ => show win2_4.index t (1 : Fin 2) * 128 + 1 * q.val = q.val; rw [e9]; omega

/-- What point t writes back is block t of `tailArr` of the arrays as the region finds them. -/
theorem flushed_eq (c : Dev nD) (t : Fin cfg2.N) :
    (dat2 V c).flushed 5 t = ((cfg2.win 5).blk t).view.read (Elt Ideal)
      (tailArr (V c main_v25) (V c main_arg9) (V c main_v6) (V c main_arg11) (V c main_v7)) := by
  obtain ⟨-, -, -, -, -, -, -, -, -, -, e10, e11⟩ := idx_facts t
  show (cfg2.win 5).cut (grid2.coords t) ((dat2 V c).after 5 t) = _
  rw [after2_5]
  unfold out2_5
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = tailArr (V c main_v25) (V c main_arg9) (V c main_v6) (V c main_arg11) (V c main_v7) (((cfg2.win 5).blk t).view.emb (ix2 p q))
  refine (payload_apply (iblk2 V c 0 t) (iblk2 V c 1 t) (iblk2 V c 2 t) (iblk2 V c 3 t) (iblk2 V c 4 t) p q).trans ?_
  have h0 : ((((cfg2.win 5).blk t).view.emb (ix2 p q)) 0).val = 2000 * t.val + p.val := by
    show win2_5.index t (0 : Fin 2) * 2000 + 1 * p.val = _; rw [e10]; omega
  have h1 : ((((cfg2.win 5).blk t).view.emb (ix2 p q)) 1).val = q.val := by
    show win2_5.index t (1 : Fin 2) * 128 + 1 * q.val = _; rw [e11]; omega
  have hrow : (((cfg2.win 5).blk t).view.emb (ix2 p q)) 0 = (⟨2000 * t.val + p.val, by have := t_lt t; have := p.isLt; omega⟩ : Fin 20000) := Fin.ext h0
  have hcol : (((cfg2.win 5).blk t).view.emb (ix2 p q)) 1 = q := Fin.ext h1
  unfold tailArr
  rw [hrow, hcol]
  congr 1
  · funext k'; exact aggblk_apply V c t p k'
  · funext k' k; exact w1blk_apply V c t k' k
  · funext k; exact b1blk_apply V c t k
  · funext k q'; exact w2blk_apply V c t k q'
  · funext q'; exact b2blk_apply V c t q'

/-- An index of the result array is in point t's block iff each coordinate is in the block's range on its axis. -/
theorem mem_blk (t : Fin cfg2.N) (i : S20000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v26).slice (win2_5.rect t)).set ↔ _
  rw [View.set_slice_whole, Rect.mem_set_unit]
  exact Iff.rfl

/-- Every row of the result lies in the block of the point numbered by the row's quotient by 2000. -/
theorem cover (i : S20000x128.Idx) : ∃ t : Fin cfg2.N, (cfg2.win 5).flush t = true ∧ i ∈ ((cfg2.win 5).blk t).view.set := by
  have hi0 : (i 0).val < 20000 := (i 0).isLt
  have hi1 : (i 1).val < 128 := (i 1).isLt
  let t : Fin cfg2.N := ⟨(i 0).val / 2000, by rw [show cfg2.N = 10 from N_2]; omega⟩
  obtain ⟨-, -, -, -, -, -, -, -, -, -, e10, e11⟩ := idx_facts t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; rw [e10]; show (i 0).val / 2000 * 2000 ≤ (i 0).val ∧ (i 0).val < (i 0).val / 2000 * 2000 + 2000; omega
  | ⟨1, _⟩ => show win2_5.index t (1 : Fin 2) * 128 ≤ (i 1).val ∧ (i 1).val < win2_5.index t (1 : Fin 2) * 128 + 128; rw [e11]; omega

/-- The result array after the region: the tail network of the aggregate the region was entered with. -/
theorem final (c : Dev nD) : (dat2 V c).arrAt 5 cfg2.N
    = tailArr (V c main_v25) (V c main_arg9) (V c main_v6) (V c main_arg11) (V c main_v7) :=
  (dat2 V c).arrAt_eq_of_cover 5 (tailArr (V c main_v25) (V c main_arg9) (V c main_v6) (V c main_arg11) (V c main_v7))
    (fun t _ => flushed_eq V c t) cover

end Cert.KernelIdeal.Tail

end
-- ==== Proof.Middle.lean ====
/-
  The host operations between the pallas_calls, and the kernel program's result as one term of its arguments.

  Before the first call the host cuts the edge list into its source and destination rows and lays each bias vector
  as a row [1, 128]. Between the second and third calls it forms the cosine cutoff of each edge's length as a column,
  gathers the projected features of each edge's source node (negative indices counted from the end; a row whose index
  falls outside the table replaced by a fill value), multiplies by the filter and the cutoff, and adds the messages
  up per destination node. Each stretch is read here as a function of the contents it starts from; chained with the
  three regions' results, the program's result array is the tail network of that aggregate.
-/
import proofs.«428623_j21354577395850_3_alg».proof.Proof.Gen.KernelIdeal.Frame
import proofs.«428623_j21354577395850_3_alg».proof.Proof.RegionProj
import proofs.«428623_j21354577395850_3_alg».proof.Proof.RegionFilter
import proofs.«428623_j21354577395850_3_alg».proof.Proof.RegionTail
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Mid

open Cert.KernelIdeal Cert.KernelIdeal.Gen

/-! ## The pieces, as functions of whole arrays -/

/-- Row `r` of the edge list as a vector of 640000 indices. -/
def srcOf (ei : IVec S2x640000 32) : IVec S640000 32 :=
  shapeCast S640000 (extractStridedSlice S1x640000 ![0, 0] ei slices_S2x640000_S1x640000_0_0) shapeCasts_S1x640000_S640000
def dstOf (ei : IVec S2x640000 32) : IVec S640000 32 :=
  shapeCast S640000 (extractStridedSlice S1x640000 ![1, 0] ei slices_S2x640000_S1x640000_1_0) shapeCasts_S1x640000_S640000

/-- A bias vector laid as a row. -/
def rowOf (b : FVec Ideal S128 .f32) : FVec Ideal S1x128 .f32 := shapeCast S1x128 b shapeCasts_S128_S1x128

/-- The cosine cutoff of the edge lengths, as a column. -/
def cutoffCol (ew : FVec Ideal S640000 .f32) : FVec Ideal S640000x1 .f32 :=
  shapeCast S640000x1
    (mulf (broadcastInDim S640000 ![] bcast_S_S640000 (constant (F := Ideal) S_ .f32 0x3F000000#32))
      (addf (Host.cos (mulf ew (broadcastInDim S640000 ![] bcast_S_S640000 (constant (F := Ideal) S_ .f32 0x3EA0D97C#32))))
        (broadcastInDim S640000 ![] bcast_S_S640000 (constant (F := Ideal) S_ .f32 0x3F800000#32))))
    shapeCasts_S640000_S640000x1

/-- The source indices with the negatives counted from the end, as a column of start indices. -/
def takeIdx (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 20000#32))) src)

/-- Which edges' normalized index lies in the table: 0 ≤ idx ≤ 19999, per edge. -/
def takeOk (src : IVec S640000 32) : IVec S640000 1 :=
  Host.reduce IntOp.andi
    (andi (cmpi .sge (takeIdx src) (broadcastInDim S640000x1 ![] bcast_S_S640000x1 (constantI S_ 32 0#32)))
      (cmpi .sle (takeIdx src) (broadcastInDim S640000x1 ![0, 1] bcast_S1x1_S640000x1_0_1
        (broadcastInDim S1x1 ![1] bcast_S1_S1x1_1 (constantI S1 32 19999#32)))))
    (constantI S_ 1 1#1) reducesTo_S640000x1_S640000_d1 h_S_

/-- The gathered source rows, filled where the index is outside the table. -/
def taken (h : FVec Ideal S20000x128 .f32) (src : IVec S640000 32) : FVec Ideal S640000x128 .f32 :=
  select (broadcastInDim S640000x128 ![0] bcast_S640000_S640000x128_0 (takeOk src))
    (Host.gather gather_S20000x128_S640000x1_S640000x128_1_0_n_n_0_1_1128 h (takeIdx src))
    (broadcastInDim S640000x128 ![] bcast_S_S640000x128 (constant (F := Ideal) S_ .f32 0x7FC00000#32))

/-- The messages added up per destination node. -/
def aggArr (h : FVec Ideal S20000x128 .f32) (src dst : IVec S640000 32) (wf : FVec Ideal S640000x128 .bf16)
    (ew : FVec Ideal S640000 .f32) : FVec Ideal S20000x128 .f32 :=
  Host.scatterAdd scatter_S20000x128_S640000x1_S640000x128_1_0_0_1
    (broadcastInDim S20000x128 ![] bcast_S_S20000x128 (constant (F := Ideal) S_ .f32 0x00000000#32))
    (broadcastInDim S640000x1 ![0] bcast_S640000_S640000x1_0 dst)
    (mulf (taken h src)
      (mulf (extf .f32 wf bitsLt_bf16_f32)
        (broadcastInDim S640000x128 ![0, 1] bcast_S640000x1_S640000x128_0_1 (cutoffCol ew))))

/-! ## Each stretch read from the contents it starts from -/

section Stretches
variable (W : Valuation τ sig (Elt Ideal))

theorem s0_v1 : StableHlo.after hostOps0 W (Proc.devRef .tc main_v1) = srcOf (W (Proc.devRef .tc main_arg1)) := by after_results; rfl
theorem s0_v3 : StableHlo.after hostOps0 W (Proc.devRef .tc main_v3) = dstOf (W (Proc.devRef .tc main_arg1)) := by after_results; rfl
theorem s0_v4 : StableHlo.after hostOps0 W (Proc.devRef .tc main_v4) = rowOf (W (Proc.devRef .tc main_arg5)) := by after_results; rfl
theorem s0_v5 : StableHlo.after hostOps0 W (Proc.devRef .tc main_v5) = rowOf (W (Proc.devRef .tc main_arg7)) := by after_results; rfl
theorem s0_v6 : StableHlo.after hostOps0 W (Proc.devRef .tc main_v6) = rowOf (W (Proc.devRef .tc main_arg10)) := by after_results; rfl
theorem s0_v7 : StableHlo.after hostOps0 W (Proc.devRef .tc main_v7) = rowOf (W (Proc.devRef .tc main_arg12)) := by after_results; rfl
theorem s0_arg0 : StableHlo.after hostOps0 W (Proc.devRef .tc main_arg0) = W (Proc.devRef .tc main_arg0) := by after_results
theorem s0_arg2 : StableHlo.after hostOps0 W (Proc.devRef .tc main_arg2) = W (Proc.devRef .tc main_arg2) := by after_results
theorem s0_arg3 : StableHlo.after hostOps0 W (Proc.devRef .tc main_arg3) = W (Proc.devRef .tc main_arg3) := by after_results
theorem s0_arg4 : StableHlo.after hostOps0 W (Proc.devRef .tc main_arg4) = W (Proc.devRef .tc main_arg4) := by after_results
theorem s0_arg6 : StableHlo.after hostOps0 W (Proc.devRef .tc main_arg6) = W (Proc.devRef .tc main_arg6) := by after_results
theorem s0_arg8 : StableHlo.after hostOps0 W (Proc.devRef .tc main_arg8) = W (Proc.devRef .tc main_arg8) := by after_results

theorem s2_v17 : StableHlo.after hostOps2 W (Proc.devRef .tc main_v17) = cutoffCol (W (Proc.devRef .tc main_arg2)) := by after_results; rfl
theorem s2_v1 : StableHlo.after hostOps2 W (Proc.devRef .tc main_v1) = W (Proc.devRef .tc main_v1) := by after_results
theorem s2_v3 : StableHlo.after hostOps2 W (Proc.devRef .tc main_v3) = W (Proc.devRef .tc main_v3) := by after_results
theorem s2_v8 : StableHlo.after hostOps2 W (Proc.devRef .tc main_v8) = W (Proc.devRef .tc main_v8) := by after_results
theorem s2_v9 : StableHlo.after hostOps2 W (Proc.devRef .tc main_v9) = W (Proc.devRef .tc main_v9) := by after_results
theorem s2_v6 : StableHlo.after hostOps2 W (Proc.devRef .tc main_v6) = W (Proc.devRef .tc main_v6) := by after_results
theorem s2_v7 : StableHlo.after hostOps2 W (Proc.devRef .tc main_v7) = W (Proc.devRef .tc main_v7) := by after_results

set_option maxHeartbeats 4000000 in
theorem s21_v18 : StableHlo.after hostOps2_1 W (Proc.devRef .tc main_v18)
    = taken (W (Proc.devRef .tc main_v8)) (W (Proc.devRef .tc main_v1)) := by
  after_results_simp
  unfold taken takeOk takeIdx
  simp only [TRef.ofBuf, TRef.toBuf, cast_eq]
theorem s21_v3 : StableHlo.after hostOps2_1 W (Proc.devRef .tc main_v3) = W (Proc.devRef .tc main_v3) := by after_results
theorem s21_v9 : StableHlo.after hostOps2_1 W (Proc.devRef .tc main_v9) = W (Proc.devRef .tc main_v9) := by after_results
theorem s21_v17 : StableHlo.after hostOps2_1 W (Proc.devRef .tc main_v17) = W (Proc.devRef .tc main_v17) := by after_results
theorem s21_v6 : StableHlo.after hostOps2_1 W (Proc.devRef .tc main_v6) = W (Proc.devRef .tc main_v6) := by after_results
theorem s21_v7 : StableHlo.after hostOps2_1 W (Proc.devRef .tc main_v7) = W (Proc.devRef .tc main_v7) := by after_results

theorem s22_v25 : StableHlo.after hostOps2_2 W (Proc.devRef .tc main_v25)
    = Host.scatterAdd scatter_S20000x128_S640000x1_S640000x128_1_0_0_1
        (broadcastInDim S20000x128 ![] bcast_S_S20000x128 (constant (F := Ideal) S_ .f32 0x00000000#32))
        (broadcastInDim S640000x1 ![0] bcast_S640000_S640000x1_0 (W (Proc.devRef .tc main_v3)))
        (mulf (W (Proc.devRef .tc main_v18))
          (mulf (extf .f32 (W (Proc.devRef .tc main_v9)) bitsLt_bf16_f32)
            (broadcastInDim S640000x128 ![0, 1] bcast_S640000x1_S640000x128_0_1 (W (Proc.devRef .tc main_v17))))) := by
  after_results
theorem s22_v6 : StableHlo.after hostOps2_2 W (Proc.devRef .tc main_v6) = W (Proc.devRef .tc main_v6) := by after_results
theorem s22_v7 : StableHlo.after hostOps2_2 W (Proc.devRef .tc main_v7) = W (Proc.devRef .tc main_v7) := by after_results

end Stretches

/-! ## The boundaries' contents, chained from the launch memory -/

section Chain
variable (m : (ℓ : Loc nD τ sig) → Buf (Elt Ideal) ℓ) (ρ : Dev nD → PrngReg)

/-- After the first region the projected table is the product of the launched node features and weight. -/
theorem W2_v8 (c : Dev nD) : W2 m ρ c (Proc.devRef .tc main_v8) = Proj.projArr (m ((c : Thread nD τ).loc main_arg0)) (m ((c : Thread nD τ).loc main_arg8)) := by
  refine ((W2_arr m ρ c 2).trans (Proj.final (V1 m ρ) c)).trans ?_
  show Proj.projArr (W1 m ρ c (Proc.devRef .tc main_arg0)) (W1 m ρ c (Proc.devRef .tc main_arg8)) = _
  rw [show W1 m ρ c (Proc.devRef .tc main_arg0) = _ from s0_arg0 (W0 m ρ c), show W1 m ρ c (Proc.devRef .tc main_arg8) = _ from s0_arg8 (W0 m ρ c)]

/-- What the first region leaves untouched, read back to the launch: the second region's inputs. -/
theorem W2_arg3 (c : Dev nD) : W2 m ρ c (Proc.devRef .tc main_arg3) = m ((c : Thread nD τ).loc main_arg3) :=
  (W2_of_ne m ρ c main_arg3 (by decide)).trans (s0_arg3 (W0 m ρ c))
theorem W2_arg4 (c : Dev nD) : W2 m ρ c (Proc.devRef .tc main_arg4) = m ((c : Thread nD τ).loc main_arg4) :=
  (W2_of_ne m ρ c main_arg4 (by decide)).trans (s0_arg4 (W0 m ρ c))
theorem W2_arg6 (c : Dev nD) : W2 m ρ c (Proc.devRef .tc main_arg6) = m ((c : Thread nD τ).loc main_arg6) :=
  (W2_of_ne m ρ c main_arg6 (by decide)).trans (s0_arg6 (W0 m ρ c))
theorem W2_v4 (c : Dev nD) : W2 m ρ c (Proc.devRef .tc main_v4) = rowOf (m ((c : Thread nD τ).loc main_arg5)) :=
  (W2_of_ne m ρ c main_v4 (by decide)).trans (s0_v4 (W0 m ρ c))
theorem W2_v5 (c : Dev nD) : W2 m ρ c (Proc.devRef .tc main_v5) = rowOf (m ((c : Thread nD τ).loc main_arg7)) :=
  (W2_of_ne m ρ c main_v5 (by decide)).trans (s0_v5 (W0 m ρ c))

/-- After the second region the filter table is the filter network of the launched edge attributes. -/
theorem W3_v9 (c : Dev nD) : W3 m ρ c (Proc.devRef .tc main_v9)
    = Filter.filterArr (m ((c : Thread nD τ).loc main_arg3)) (m ((c : Thread nD τ).loc main_arg4)) (rowOf (m ((c : Thread nD τ).loc main_arg5))) (m ((c : Thread nD τ).loc main_arg6)) (rowOf (m ((c : Thread nD τ).loc main_arg7))) := by
  refine ((W3_arr m ρ c 5).trans (Filter.final (V2 m ρ) c)).trans ?_
  show Filter.filterArr (W2 m ρ c (Proc.devRef .tc main_arg3)) (W2 m ρ c (Proc.devRef .tc main_arg4)) (W2 m ρ c (Proc.devRef .tc main_v4))
    (W2 m ρ c (Proc.devRef .tc main_arg6)) (W2 m ρ c (Proc.devRef .tc main_v5)) = _
  rw [W2_arg3, W2_arg4, W2_v4, W2_arg6, W2_v5]

/-- What neither region touches, at the second region's exit. -/
theorem W3_v8 (c : Dev nD) : W3 m ρ c (Proc.devRef .tc main_v8) = Proj.projArr (m ((c : Thread nD τ).loc main_arg0)) (m ((c : Thread nD τ).loc main_arg8)) :=
  (W3_of_ne m ρ c main_v8 (by decide)).trans (W2_v8 m ρ c)
theorem W3_v1 (c : Dev nD) : W3 m ρ c (Proc.devRef .tc main_v1) = srcOf (m ((c : Thread nD τ).loc main_arg1)) :=
  (W3_of_ne m ρ c main_v1 (by decide)).trans ((W2_of_ne m ρ c main_v1 (by decide)).trans (s0_v1 (W0 m ρ c)))
theorem W3_v3 (c : Dev nD) : W3 m ρ c (Proc.devRef .tc main_v3) = dstOf (m ((c : Thread nD τ).loc main_arg1)) :=
  (W3_of_ne m ρ c main_v3 (by decide)).trans ((W2_of_ne m ρ c main_v3 (by decide)).trans (s0_v3 (W0 m ρ c)))
theorem W3_arg2 (c : Dev nD) : W3 m ρ c (Proc.devRef .tc main_arg2) = m ((c : Thread nD τ).loc main_arg2) :=
  (W3_of_ne m ρ c main_arg2 (by decide)).trans ((W2_of_ne m ρ c main_arg2 (by decide)).trans (s0_arg2 (W0 m ρ c)))
theorem W3_v6 (c : Dev nD) : W3 m ρ c (Proc.devRef .tc main_v6) = rowOf (m ((c : Thread nD τ).loc main_arg10)) :=
  (W3_of_ne m ρ c main_v6 (by decide)).trans ((W2_of_ne m ρ c main_v6 (by decide)).trans (s0_v6 (W0 m ρ c)))
theorem W3_v7 (c : Dev nD) : W3 m ρ c (Proc.devRef .tc main_v7) = rowOf (m ((c : Thread nD τ).loc main_arg12)) :=
  (W3_of_ne m ρ c main_v7 (by decide)).trans ((W2_of_ne m ρ c main_v7 (by decide)).trans (s0_v7 (W0 m ρ c)))

/-- The aggregate the third region is entered with. -/
theorem W6_v25 (c : Dev nD) : W6 m ρ c (Proc.devRef .tc main_v25)
    = aggArr (Proj.projArr (m ((c : Thread nD τ).loc main_arg0)) (m ((c : Thread nD τ).loc main_arg8))) (srcOf (m ((c : Thread nD τ).loc main_arg1))) (dstOf (m ((c : Thread nD τ).loc main_arg1)))
        (Filter.filterArr (m ((c : Thread nD τ).loc main_arg3)) (m ((c : Thread nD τ).loc main_arg4)) (rowOf (m ((c : Thread nD τ).loc main_arg5))) (m ((c : Thread nD τ).loc main_arg6)) (rowOf (m ((c : Thread nD τ).loc main_arg7)))) (m ((c : Thread nD τ).loc main_arg2)) := by
  refine (s22_v25 (W5 m ρ c)).trans ?_
  rw [show W5 m ρ c (Proc.devRef .tc main_v3) = _ from (s21_v3 (W4 m ρ c)).trans ((s2_v3 (W3 m ρ c)).trans (W3_v3 m ρ c)),
    show W5 m ρ c (Proc.devRef .tc main_v18) = _ from s21_v18 (W4 m ρ c),
    show W4 m ρ c (Proc.devRef .tc main_v8) = _ from (s2_v8 (W3 m ρ c)).trans (W3_v8 m ρ c),
    show W4 m ρ c (Proc.devRef .tc main_v1) = _ from (s2_v1 (W3 m ρ c)).trans (W3_v1 m ρ c),
    show W5 m ρ c (Proc.devRef .tc main_v9) = _ from (s21_v9 (W4 m ρ c)).trans ((s2_v9 (W3 m ρ c)).trans (W3_v9 m ρ c)),
    show W5 m ρ c (Proc.devRef .tc main_v17) = _ from (s21_v17 (W4 m ρ c)).trans ((s2_v17 (W3 m ρ c)).trans (congrArg cutoffCol (W3_arg2 m ρ c)))]
  try rfl

theorem W6_v6 (c : Dev nD) : W6 m ρ c (Proc.devRef .tc main_v6) = rowOf (m ((c : Thread nD τ).loc main_arg10)) :=
  (s22_v6 (W5 m ρ c)).trans ((s21_v6 (W4 m ρ c)).trans ((s2_v6 (W3 m ρ c)).trans (W3_v6 m ρ c)))
theorem W6_v7 (c : Dev nD) : W6 m ρ c (Proc.devRef .tc main_v7) = rowOf (m ((c : Thread nD τ).loc main_arg12)) :=
  (s22_v7 (W5 m ρ c)).trans ((s21_v7 (W4 m ρ c)).trans ((s2_v7 (W3 m ρ c)).trans (W3_v7 m ρ c)))
theorem W6_arg9 (c : Dev nD) : W6 m ρ c (Proc.devRef .tc main_arg9) = m ((c : Thread nD τ).loc main_arg9) :=
  ((W7_arr m ρ c 1).trans (((dat2 (V6 m ρ) c).arrAt_in 1 rfl _).trans (A_eq2 (V6 m ρ) c 1))).symm.trans (W7_main_arg9 m ρ c)
theorem W6_arg11 (c : Dev nD) : W6 m ρ c (Proc.devRef .tc main_arg11) = m ((c : Thread nD τ).loc main_arg11) :=
  ((W7_arr m ρ c 3).trans (((dat2 (V6 m ρ) c).arrAt_in 3 rfl _).trans (A_eq2 (V6 m ρ) c 3))).symm.trans (W7_main_arg11 m ρ c)

/-- THE KERNEL PROGRAM'S RESULT: the tail network of the aggregated messages, as one term of the launched arguments. -/
theorem result_eq (c : Dev nD) : W7 m ρ c (Proc.devRef .tc main_v26)
    = Tail.tailArr
        (aggArr (Proj.projArr (m ((c : Thread nD τ).loc main_arg0)) (m ((c : Thread nD τ).loc main_arg8))) (srcOf (m ((c : Thread nD τ).loc main_arg1))) (dstOf (m ((c : Thread nD τ).loc main_arg1)))
          (Filter.filterArr (m ((c : Thread nD τ).loc main_arg3)) (m ((c : Thread nD τ).loc main_arg4)) (rowOf (m ((c : Thread nD τ).loc main_arg5))) (m ((c : Thread nD τ).loc main_arg6)) (rowOf (m ((c : Thread nD τ).loc main_arg7)))) (m ((c : Thread nD τ).loc main_arg2)))
        (m ((c : Thread nD τ).loc main_arg9)) (rowOf (m ((c : Thread nD τ).loc main_arg10))) (m ((c : Thread nD τ).loc main_arg11)) (rowOf (m ((c : Thread nD τ).loc main_arg12))) := by
  refine ((W7_arr m ρ c 5).trans (Tail.final (V6 m ρ) c)).trans ?_
  show Tail.tailArr (W6 m ρ c (Proc.devRef .tc main_v25)) (W6 m ρ c (Proc.devRef .tc main_arg9)) (W6 m ρ c (Proc.devRef .tc main_v6))
    (W6 m ρ c (Proc.devRef .tc main_arg11)) (W6 m ρ c (Proc.devRef .tc main_v7)) = _
  rw [W6_v25, W6_arg9, W6_v6, W6_arg11, W6_v7]

end Chain

end Cert.KernelIdeal.Mid

end
-- ==== Proof.RefSide.lean ====
/-
  The reference's stages as the functions the kernel's regions compute, at the ideal instance.

  The reference's node projection is the plain product x · lin1_w; its filter is, row by row, the two-layer map
  (`mlpRow`) of the edge attributes; its cutoff at an edge is ½ (cos(length · c) + 1) with the f32 word c of π/10; and
  its result is, row by row, the two-layer map of the aggregated messages. A bias vector broadcast first to a row
  and then down the rows reads, at (p, q), its entry q. The shifted softplus is the reference's guarded form, which
  is the kernel's (`ssp_ref`).
-/
import proofs.«428623_j21354577395850_3_alg».proof.Proof.Gen.ReferenceIdeal.Read
import proofs.«428623_j21354577395850_3_alg».proof.Proof.LibPlainDot
import proofs.«428623_j21354577395850_3_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Interaction

/-- A bias vector broadcast to a row and then down n rows reads, at row p and column q, its entry q. -/
theorem biasRef_apply {α : Type} {n : Nat} (b : (⟨1, ![128]⟩ : Shape).Idx → α)
    (h1 : (⟨1, ![128]⟩ : Shape).BroadcastsInDim ⟨2, ![1, 128]⟩ ![1])
    (h2 : (⟨2, ![1, 128]⟩ : Shape).BroadcastsInDim ⟨2, ![n, 128]⟩ ![0, 1]) (p : Fin n) (q : Fin 128) :
    broadcastInDim ⟨2, ![n, 128]⟩ ![0, 1] h2 (broadcastInDim ⟨2, ![1, 128]⟩ ![1] h1 b) (ix2 p q) = b (ix1 q) :=
  (broadcastInDim_apply _ h2 _ (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ h1 b (ix2 0 q) (ix1 q) (fun a => match a with
    | ⟨0, _⟩ => by show q.val = if (128 : Nat) = 1 then 0 else q.val; rw [if_neg (by decide)]))

/-- The cosine cutoff of one edge length. -/
def cutoff (w : EReal) : EReal :=
  Ideal.ofBits .f32 0x3F000000#32 * (Ideal.cos (w * Ideal.ofBits .f32 0x3EA0D97C#32) + Ideal.ofBits .f32 0x3F800000#32)

/-! ## The node projection -/

theorem proj_apply (x0 : FVec Ideal S20000x128 .f32) (x8 : FVec Ideal S128x128 .f32) (r : Fin 20000) (q : Fin 128) :
    val_main_v25 (F := Ideal) x0 x8 (ix2 r q) = ∑ k : Fin 128, x0 (ix2 r k) * x8 (ix2 k q) := by
  unfold val_main_v25
  exact PlainDot.dotGeneral_apply dot_S20000x128_S128x128_S20000x128_1_0_0_1_n_n rfl none .single x0 x8 r q

/-! ## The filter network -/

theorem pre_filter (x3 : FVec Ideal S640000x50 .f32) (x4 : FVec Ideal S50x128 .f32) (x5 : FVec Ideal S128 .f32) (e : Fin 640000) (k : Fin 128) :
    val_main_v14 (F := Ideal) x3 x4 x5 (ix2 e k) = (∑ k' : Fin 50, x3 (ix2 e k') * x4 (ix2 k' k)) + x5 (ix1 k) := by
  unfold val_main_v14 val_main_v13 val_main_v12 val_main_v11
  show FloatOps.dotGeneral (F := Ideal) dot_S640000x50_S50x128_S640000x128_1_0_0_1_n_n none .single x3 x4 (ix2 e k)
      + broadcastInDim S640000x128 ![0, 1] bcast_S1x128_S640000x128_0_1 (broadcastInDim S1x128 ![1] bcast_S128_S1x128_1 x5) (ix2 e k) = _
  rw [PlainDot.dotGeneral_apply dot_S640000x50_S50x128_S640000x128_1_0_0_1_n_n rfl none .single x3 x4 e k, biasRef_apply]

theorem hidden_filter (x3 : FVec Ideal S640000x50 .f32) (x4 : FVec Ideal S50x128 .f32) (x5 : FVec Ideal S128 .f32) (e : Fin 640000) (k : Fin 128) :
    val_main_v17 (F := Ideal) x3 x4 x5 (ix2 e k) = ssp ((∑ k' : Fin 50, x3 (ix2 e k') * x4 (ix2 k' k)) + x5 (ix1 k)) := by
  unfold val_main_v17 val_main_v16 val_main_cst_2 val_main_v15 val_main_call0_v11 val_main_call0_v10 val_main_call0_v9 val_main_call0_v8
    val_main_call0_v7 val_main_call0_v6 val_main_call0_v5 val_main_call0_v4 val_main_call0_v3 val_main_call0_v2 val_main_call0_v1
    val_main_call0_v0 val_main_call0_cst
  exact (ssp_ref (val_main_v14 (F := Ideal) x3 x4 x5 (ix2 e k))).trans (congrArg ssp (pre_filter x3 x4 x5 e k))

theorem filter_apply (x3 : FVec Ideal S640000x50 .f32) (x4 : FVec Ideal S50x128 .f32) (x5 : FVec Ideal S128 .f32)
    (x6 : FVec Ideal S128x128 .f32) (x7 : FVec Ideal S128 .f32) (e : Fin 640000) (q : Fin 128) :
    val_main_v21 (F := Ideal) x3 x4 x5 x6 x7 (ix2 e q)
      = mlpRow (fun k' => x3 (ix2 e k')) (fun k' k => x4 (ix2 k' k)) (fun k => x5 (ix1 k)) (fun k q => x6 (ix2 k q)) (fun q => x7 (ix1 q)) q := by
  unfold val_main_v21 val_main_v20 val_main_v19 val_main_v18
  show FloatOps.dotGeneral (F := Ideal) dot_S640000x128_S128x128_S640000x128_1_0_0_1_n_n none .single (val_main_v17 (F := Ideal) x3 x4 x5) x6 (ix2 e q)
      + broadcastInDim S640000x128 ![0, 1] bcast_S1x128_S640000x128_0_1 (broadcastInDim S1x128 ![1] bcast_S128_S1x128_1 x7) (ix2 e q) = _
  rw [PlainDot.dotGeneral_apply dot_S640000x128_S128x128_S640000x128_1_0_0_1_n_n rfl none .single _ x6 e q, biasRef_apply]
  unfold mlpRow
  congr 1
  refine Finset.sum_congr rfl fun k _ => ?_
  congr 1
  exact hidden_filter x3 x4 x5 e k

/-! ## The cutoff -/

theorem cutoff_apply (x2 : FVec Ideal S640000 .f32) (e : Fin 640000) (j : Fin 128) :
    val_main_v23 (F := Ideal) x2 (ix2 e j) = cutoff (x2 (ix1 e)) := by
  rw [val_main_v23_apply, val_main_v22_apply]
  have hi : idx_main_v22 (idx_main_v23 (ix2 e j)) = ix1 e := funext fun a => match a with | ⟨0, _⟩ => rfl
  rw [hi]
  unfold val_main_v10 val_main_v9 val_main_cst_1 val_main_v8 val_main_v7 val_main_cst_0 val_main_v6 val_main_v5 val_main_v4 val_main_cst
  rfl

/-! ## The tail network over the aggregate -/

-- the aggregate's own term (a scatter of a product of gathers) is never opened here: it is carried as one opaque array
attribute [local irreducible] Cert.ReferenceIdeal.Read.val_main_v36

theorem pre_tail (x0 : FVec Ideal S20000x128 .f32) (x1 : IVec S2x640000 32) (x2 : FVec Ideal S640000 .f32) (x3 : FVec Ideal S640000x50 .f32) (x4 : FVec Ideal S50x128 .f32) (x5 : FVec Ideal S128 .f32) (x6 : FVec Ideal S128x128 .f32) (x7 : FVec Ideal S128 .f32) (x8 : FVec Ideal S128x128 .f32) (x9 : FVec Ideal S128x128 .f32) (x10 : FVec Ideal S128 .f32) (r : Fin 20000) (k : Fin 128) :
    val_main_v40 (F := Ideal) x0 x1 x2 x3 x4 x5 x6 x7 x8 x9 x10 (ix2 r k)
      = (∑ k' : Fin 128, val_main_v36 (F := Ideal) x0 x1 x2 x3 x4 x5 x6 x7 x8 (ix2 r k') * x9 (ix2 k' k)) + x10 (ix1 k) := by
  unfold val_main_v40 val_main_v39 val_main_v38 val_main_v37
  generalize val_main_v36 (F := Ideal) x0 x1 x2 x3 x4 x5 x6 x7 x8 = A
  show FloatOps.dotGeneral (F := Ideal) dot_S20000x128_S128x128_S20000x128_1_0_0_1_n_n none .single A x9 (ix2 r k)
      + broadcastInDim S20000x128 ![0, 1] bcast_S1x128_S20000x128_0_1 (broadcastInDim S1x128 ![1] bcast_S128_S1x128_1 x10) (ix2 r k) = _
  rw [PlainDot.dotGeneral_apply dot_S20000x128_S128x128_S20000x128_1_0_0_1_n_n rfl none .single _ x9 r k, biasRef_apply]

theorem hidden_tail (x0 : FVec Ideal S20000x128 .f32) (x1 : IVec S2x640000 32) (x2 : FVec Ideal S640000 .f32) (x3 : FVec Ideal S640000x50 .f32) (x4 : FVec Ideal S50x128 .f32) (x5 : FVec Ideal S128 .f32) (x6 : FVec Ideal S128x128 .f32) (x7 : FVec Ideal S128 .f32) (x8 : FVec Ideal S128x128 .f32) (x9 : FVec Ideal S128x128 .f32) (x10 : FVec Ideal S128 .f32) (r : Fin 20000) (k : Fin 128) :
    val_main_v43 (F := Ideal) x0 x1 x2 x3 x4 x5 x6 x7 x8 x9 x10 (ix2 r k)
      = ssp ((∑ k' : Fin 128, val_main_v36 (F := Ideal) x0 x1 x2 x3 x4 x5 x6 x7 x8 (ix2 r k') * x9 (ix2 k' k)) + x10 (ix1 k)) := by
  unfold val_main_v43 val_main_v42 val_main_cst_5 val_main_v41 val_main_call1_v11 val_main_call1_v10 val_main_call1_v9 val_main_call1_v8
    val_main_call1_v7 val_main_call1_v6 val_main_call1_v5 val_main_call1_v4 val_main_call1_v3 val_main_call1_v2 val_main_call1_v1
    val_main_call1_v0 val_main_call1_cst
  have hp := pre_tail x0 x1 x2 x3 x4 x5 x6 x7 x8 x9 x10 r k
  generalize val_main_v40 (F := Ideal) x0 x1 x2 x3 x4 x5 x6 x7 x8 x9 x10 = U at hp ⊢
  exact (ssp_ref (U (ix2 r k))).trans (congrArg ssp hp)

theorem tail_apply (x0 : FVec Ideal S20000x128 .f32) (x1 : IVec S2x640000 32) (x2 : FVec Ideal S640000 .f32) (x3 : FVec Ideal S640000x50 .f32) (x4 : FVec Ideal S50x128 .f32) (x5 : FVec Ideal S128 .f32) (x6 : FVec Ideal S128x128 .f32) (x7 : FVec Ideal S128 .f32) (x8 : FVec Ideal S128x128 .f32) (x9 : FVec Ideal S128x128 .f32) (x10 : FVec Ideal S128 .f32) (x11 : FVec Ideal S128x128 .f32) (x12 : FVec Ideal S128 .f32)
    (r : Fin 20000) (q : Fin 128) :
    val_main_v47 (F := Ideal) x0 x1 x2 x3 x4 x5 x6 x7 x8 x9 x10 x11 x12 (ix2 r q)
      = mlpRow (fun k' => val_main_v36 (F := Ideal) x0 x1 x2 x3 x4 x5 x6 x7 x8 (ix2 r k')) (fun k' k => x9 (ix2 k' k)) (fun k => x10 (ix1 k))
          (fun k q => x11 (ix2 k q)) (fun q => x12 (ix1 q)) q := by
  unfold val_main_v47 val_main_v46 val_main_v45 val_main_v44
  have hh := fun k => hidden_tail x0 x1 x2 x3 x4 x5 x6 x7 x8 x9 x10 r k
  generalize val_main_v43 (F := Ideal) x0 x1 x2 x3 x4 x5 x6 x7 x8 x9 x10 = H at hh ⊢
  show FloatOps.dotGeneral (F := Ideal) dot_S20000x128_S128x128_S20000x128_1_0_0_1_n_n none .single H x11 (ix2 r q)
      + broadcastInDim S20000x128 ![0, 1] bcast_S1x128_S20000x128_0_1 (broadcastInDim S1x128 ![1] bcast_S128_S1x128_1 x12) (ix2 r q) = _
  rw [PlainDot.dotGeneral_apply dot_S20000x128_S128x128_S20000x128_1_0_0_1_n_n rfl none .single _ x11 r q, biasRef_apply]
  unfold mlpRow
  beta_reduce
  refine congrArg₂ (· + ·) (Finset.sum_congr rfl fun k _ => ?_) rfl
  exact congrArg (· * x11 (ix2 k q)) (hh k)

end Cert.ReferenceIdeal.RefValue

end
-- ==== Proof.PreIdx.lean ====
/-
  What the precondition says of the source indices, and why the kernel's bounds mask is then all ones.

  The precondition's last conjunct is an `and`-reduction over the 640000 source indices of
  −20000 ≤ s ∧ s < 20000 (signed). For such an s, the index with negatives counted from the end — s + 20000 when
  s < 0, else s — lies in 0 … 19999: in two's complement the sum does not wrap, since −20000 ≤ s < 0 puts s + 20000 in
  0 … 19999. An `and`-reduction of ones from one is one.
-/
import proofs.«428623_j21354577395850_3_alg».proof.Pre_finite_inputs
import Idealize.ShloMosaic.Lib.ReduceAll
import Idealize.ShloMosaic.Lib.Pipeline.Value
import Idealize.ShloMosaic.Lib.ValueIdx
import Idealize.ShloMosaic.PureOps.Ideal

set_option maxRecDepth 16384

noncomputable section

open Idealize.ShloMosaic Idealize.ShloMosaic.ValueIdx

namespace Cert.Interaction

/-- A signed index in −20000 … 19999, with 20000 added when negative, lies in 0 … 19999. -/
theorem wrapped_inb (s : BitVec 32)
    (h1 : IntOp.cmpi .sge s 4294947296#32 = 1#1) (h2 : IntOp.cmpi .slt s 20000#32 = 1#1) :
    IntOp.cmpi .sge (Scalar.select (IntOp.cmpi .slt s 0#32) (IntOp.addi s 20000#32) s) 0#32 = 1#1 ∧
    IntOp.cmpi .sle (Scalar.select (IntOp.cmpi .slt s 0#32) (IntOp.addi s 20000#32) s) 19999#32 = 1#1 := by
  rw [IntOp.cmpi_sge] at h1; rw [IntOp.cmpi_slt] at h2
  have e1 : (4294947296#32 : BitVec 32).toInt = -20000 := by decide
  have e2 : (20000#32 : BitVec 32).toInt = 20000 := by decide
  have e0 : (0#32 : BitVec 32).toInt = 0 := by decide
  have e3 : (19999#32 : BitVec 32).toInt = 19999 := by decide
  rw [e1] at h1; rw [e2] at h2
  unfold Scalar.select
  split
  · rename_i hneg
    have hneg' : IntOp.cmpi .slt s 0#32 = 1#1 := hneg
    rw [IntOp.cmpi_slt, e0] at hneg'
    have ha : (IntOp.addi s 20000#32).toInt = s.toInt + 20000 := by
      unfold IntOp.addi; rw [BitVec.toInt_add, e2]
      exact Int.bmod_eq_of_le_mul_two (by omega) (by omega)
    rw [IntOp.cmpi_sge, IntOp.cmpi_sle, ha, e0, e3]; omega
  · rename_i hneg
    have hneg' : ¬ IntOp.cmpi .slt s 0#32 = 1#1 := hneg
    rw [IntOp.cmpi_slt, e0] at hneg'
    rw [IntOp.cmpi_sge, IntOp.cmpi_sle, e0, e3]; omega

/-- A left fold by `and` from 1 over ones is 1. -/
theorem foldl_andi_of_forall {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_of_forall f l _ (by show IntOp.andi init (f a) = 1#1; rw [h, hl a List.mem_cons_self]; rfl) (fun n hn => hl n (List.mem_cons_of_mem _ hn))

/-- An `and`-reduction from 1 of an array of ones is 1 everywhere. -/
theorem reduce_andi_of_forall {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl]
  exact foldl_andi_of_forall x _ _ hinit (fun n _ => hx n)

end Cert.Interaction

namespace Cert.Pre_finite_inputs

open Cert.Interaction

variable [Facts]
open Facts

instance : Subsingleton S_.Idx := ⟨fun a b => funext fun d => d.elim0⟩

/-- Row 0 of the edge list as the precondition reads it. -/
def srcP (a1 : IVec S2x640000 32) : IVec S640000 32 :=
  shapeCast S640000 (extractStridedSlice S1x640000 ![0, 0] a1 slices_S2x640000_S1x640000_0_0) shapeCasts_S1x640000_S640000

/-- Under the precondition every source index is in −20000 … 19999. -/
theorem src_in_range (a0 : FVec Ideal S20000x128 .f32) (a1 : IVec S2x640000 32) (a2 : FVec Ideal S640000 .f32) (a3 : FVec Ideal S640000x50 .f32)
    (a4 : FVec Ideal S50x128 .f32) (a5 : FVec Ideal S128 .f32) (a6 : FVec Ideal S128x128 .f32) (a7 : FVec Ideal S128 .f32)
    (a8 : FVec Ideal S128x128 .f32) (a9 : FVec Ideal S128x128 .f32) (a10 : FVec Ideal S128 .f32) (a11 : FVec Ideal S128x128 .f32)
    (a12 : FVec Ideal S128 .f32)
    (hpre : fn (F := Ideal) a0 a1 a2 a3 a4 a5 a6 a7 a8 a9 a10 a11 a12 = fun _ => 1#1) (e : S640000.Idx) :
    IntOp.cmpi .sge (srcP a1 e) 4294947296#32 = 1#1 ∧ IntOp.cmpi .slt (srcP a1 e) 20000#32 = 1#1 := by
  have h := congrFun hpre ix0
  have h68 := (IntOp.andi_eq_one.mp h).2
  have hall := Host.reduce_andi_all _ _ _ _ ix0 h68 e
  exact IntOp.andi_eq_one.mp hall

end Cert.Pre_finite_inputs

end
-- ==== Proof.Bridge.lean ====
/-
  The two programs compute one function.

  Region by region the kernel program's arrays are the reference's stages: the projected table is the reference's
  product; the filter table is the reference's filter network (a bias laid as a row [1, 128] reads, at (0, k), the
  vector's entry k); the cutoff column broadcast along the features is the reference's cutoff broadcast twice. The
  gather, the scatter-add and the index arithmetic before the gather are the same host operations on both sides, so
  they are carried as they are. The one difference is the kernel's fill of a gathered row whose index is outside the
  table: under the precondition every source index is in −20000 … 19999, so after the negatives are counted from the
  end every index is in 0 … 19999, the bounds mask is all ones, and the fill never applies. Hence the messages, the
  aggregates and the results agree.
-/
import proofs.«428623_j21354577395850_3_alg».proof.Proof.Middle
import proofs.«428623_j21354577395850_3_alg».proof.Proof.RefSide
import proofs.«428623_j21354577395850_3_alg».proof.Proof.PreIdx

set_option maxRecDepth 16384

noncomputable section

open Idealize.ShloMosaic Idealize.ShloMosaic.TcCoe Idealize.SL.Sem Idealize.ShloMosaic.ValueIdx

namespace Cert.Proof.Bridge

open Cert.KernelIdeal Cert.KernelIdeal.Gen Cert.Interaction
open Cert.KernelIdeal.Mid (srcOf dstOf rowOf cutoffCol takeOk taken aggArr)
open Cert.ReferenceIdeal.RefValue (cutoff)

/-- A bias laid as a row reads, at (0, k), the vector's entry k. -/
theorem rowOf_apply (b : FVec Ideal S128 .f32) (k : Fin 128) : rowOf b (ix2 0 k) = b (ix1 k) := by
  unfold rowOf
  refine shapeCast_apply b _ (ix2 0 k) (ix1 k) ?_
  rw [Shape.rowMajor_val_one, Shape.rowMajor_val_two]
  show k.val = 0 * 128 + k.val
  omega

/-- The cutoff column broadcast along the features reads, at edge a, the cutoff of the edge's length. -/
theorem cutoffCol_apply (x2 : FVec Ideal S640000 .f32) (a : Fin 640000) (j : Fin 128) :
    broadcastInDim S640000x128 ![0, 1] bcast_S640000x1_S640000x128_0_1 (cutoffCol x2) (ix2 a j) = cutoff (x2 (ix1 a)) := by
  refine (broadcastInDim_apply _ bcast_S640000x1_S640000x128_0_1 (cutoffCol x2) (ix2 a j) (ix2 a 0) (fun d => match d with
    | ⟨0, _⟩ => by show a.val = if (640000 : Nat) = 1 then 0 else a.val; rw [if_neg (by decide)]
    | ⟨1, _⟩ => by show 0 = if (1 : Nat) = 1 then 0 else j.val; rw [if_pos rfl])).trans ?_
  unfold cutoffCol
  refine (shapeCast_apply _ shapeCasts_S640000_S640000x1 (ix2 a 0) (ix1 a) ?_).trans rfl
  rw [Shape.rowMajor_val_one, Shape.rowMajor_val_two]
  show a.val = a.val * 1 + 0
  omega

/-- The kernel's projected table is the reference's product. -/
theorem proj_eq (x0 : FVec Ideal S20000x128 .f32) (x8 : FVec Ideal S128x128 .f32) :
    Proj.projArr x0 x8 = Cert.ReferenceIdeal.Read.val_main_v25 (F := Ideal) x0 x8 := by
  funext i
  obtain ⟨r, q, rfl⟩ : ∃ (r : Fin 20000) (q : Fin 128), i = ix2 r q := ⟨i 0, i 1, eq_ix2 i⟩
  exact (Cert.ReferenceIdeal.RefValue.proj_apply x0 x8 r q).symm

/-- The kernel's filter table is the reference's filter network. -/
theorem filter_eq (x3 : FVec Ideal S640000x50 .f32) (x4 : FVec Ideal S50x128 .f32) (x5 : FVec Ideal S128 .f32)
    (x6 : FVec Ideal S128x128 .f32) (x7 : FVec Ideal S128 .f32) (e : Fin 640000) (q : Fin 128) :
    Filter.filterArr x3 x4 (rowOf x5) x6 (rowOf x7) (ix2 e q) = Cert.ReferenceIdeal.Read.val_main_v21 (F := Ideal) x3 x4 x5 x6 x7 (ix2 e q) := by
  rw [Cert.ReferenceIdeal.RefValue.filter_apply]
  unfold Filter.filterArr
  rw [show (fun k => rowOf x5 (ix2 0 k)) = (fun k => x5 (ix1 k)) from funext (rowOf_apply x5),
    show (fun q => rowOf x7 (ix2 0 q)) = (fun q => x7 (ix1 q)) from funext (rowOf_apply x7)]

/-- Under the index range the kernel's bounds mask is 1 at every edge and feature. -/
theorem mask_one (src : IVec S640000 32)
    (hsrc : ∀ e : S640000.Idx, IntOp.cmpi .sge (src e) 4294947296#32 = 1#1 ∧ IntOp.cmpi .slt (src e) 20000#32 = 1#1)
    (i : S640000x128.Idx) :
    broadcastInDim S640000x128 ![0] bcast_S640000_S640000x128_0 (takeOk src) i = 1#1 := by
  refine (broadcastInDim_apply _ bcast_S640000_S640000x128_0 (takeOk src) i (ix1 (i 0)) (fun d => match d with
    | ⟨0, _⟩ => by show (i 0).val = if (640000 : Nat) = 1 then 0 else (i 0).val; rw [if_neg (by decide)])).trans ?_
  unfold takeOk
  refine reduce_andi_of_forall _ _ _ _ _ rfl fun y => ?_
  have hy : Mid.takeIdx src y = Scalar.select (IntOp.cmpi .slt (src (ix1 (y 0))) 0#32) (IntOp.addi (src (ix1 (y 0))) 20000#32) (src (ix1 (y 0))) := by
    unfold Mid.takeIdx
    exact (broadcastInDim_apply _ bcast_S640000_S640000x1_0 _ y (ix1 (y 0)) (fun d => match d with
      | ⟨0, _⟩ => by show (y 0).val = if (640000 : Nat) = 1 then 0 else (y 0).val; rw [if_neg (by decide)])).trans rfl
  obtain ⟨h1, h2⟩ := hsrc (ix1 (y 0))
  obtain ⟨w1, w2⟩ := wrapped_inb (src (ix1 (y 0))) h1 h2
  show IntOp.andi (IntOp.cmpi .sge (Mid.takeIdx src y) 0#32) (IntOp.cmpi .sle (Mid.takeIdx src y) 19999#32) = 1#1
  rw [hy]
  exact IntOp.andi_eq_one.mpr ⟨w1, w2⟩

/-- The per-edge messages agree. -/
theorem upd_eq (x0 : FVec Ideal S20000x128 .f32) (x1 : IVec S2x640000 32) (x2 : FVec Ideal S640000 .f32) (x3 : FVec Ideal S640000x50 .f32) (x4 : FVec Ideal S50x128 .f32) (x5 : FVec Ideal S128 .f32) (x6 : FVec Ideal S128x128 .f32) (x7 : FVec Ideal S128 .f32) (x8 : FVec Ideal S128x128 .f32)
    (hsrc : ∀ e : S640000.Idx, IntOp.cmpi .sge (srcOf x1 e) 4294947296#32 = 1#1 ∧ IntOp.cmpi .slt (srcOf x1 e) 20000#32 = 1#1) :
    mulf (F := Ideal) (taken (Proj.projArr x0 x8) (srcOf x1))
      (mulf (F := Ideal) (extf (F := Ideal) .f32 (Filter.filterArr x3 x4 (rowOf x5) x6 (rowOf x7)) bitsLt_bf16_f32)
        (broadcastInDim S640000x128 ![0, 1] bcast_S640000x1_S640000x128_0_1 (cutoffCol x2)))
    = Cert.ReferenceIdeal.Read.val_main_v33 (F := Ideal) x0 x1 x2 x3 x4 x5 x6 x7 x8 := by
  funext i
  obtain ⟨e, q, rfl⟩ : ∃ (e : Fin 640000) (q : Fin 128), i = ix2 e q := ⟨i 0, i 1, eq_ix2 i⟩
  have hm := mask_one (srcOf x1) hsrc (ix2 e q)
  have hg : taken (Proj.projArr x0 x8) (srcOf x1) (ix2 e q) = Cert.ReferenceIdeal.Read.val_main_v32 (F := Ideal) x0 x1 x8 (ix2 e q) := by
    unfold taken
    show Scalar.select (broadcastInDim S640000x128 ![0] bcast_S640000_S640000x128_0 (takeOk (srcOf x1)) (ix2 e q)) _ _ = _
    rw [hm, select_one, proj_eq]
    rfl
  show taken (Proj.projArr x0 x8) (srcOf x1) (ix2 e q)
      * (Filter.filterArr x3 x4 (rowOf x5) x6 (rowOf x7) (ix2 e q)
        * broadcastInDim S640000x128 ![0, 1] bcast_S640000x1_S640000x128_0_1 (cutoffCol x2) (ix2 e q))
    = Cert.ReferenceIdeal.Read.val_main_v32 (F := Ideal) x0 x1 x8 (ix2 e q)
      * (Cert.ReferenceIdeal.Read.val_main_v21 (F := Ideal) x3 x4 x5 x6 x7 (ix2 e q) * Cert.ReferenceIdeal.Read.val_main_v23 (F := Ideal) x2 (ix2 e q))
  rw [hg, filter_eq, cutoffCol_apply, Cert.ReferenceIdeal.RefValue.cutoff_apply]

/-- The aggregates agree. -/
theorem agg_eq (x0 : FVec Ideal S20000x128 .f32) (x1 : IVec S2x640000 32) (x2 : FVec Ideal S640000 .f32) (x3 : FVec Ideal S640000x50 .f32) (x4 : FVec Ideal S50x128 .f32) (x5 : FVec Ideal S128 .f32) (x6 : FVec Ideal S128x128 .f32) (x7 : FVec Ideal S128 .f32) (x8 : FVec Ideal S128x128 .f32)
    (hsrc : ∀ e : S640000.Idx, IntOp.cmpi .sge (srcOf x1 e) 4294947296#32 = 1#1 ∧ IntOp.cmpi .slt (srcOf x1 e) 20000#32 = 1#1) :
    aggArr (Proj.projArr x0 x8) (srcOf x1) (dstOf x1) (Filter.filterArr x3 x4 (rowOf x5) x6 (rowOf x7)) x2
      = Cert.ReferenceIdeal.Read.val_main_v36 (F := Ideal) x0 x1 x2 x3 x4 x5 x6 x7 x8 := by
  unfold aggArr Cert.ReferenceIdeal.Read.val_main_v36
  rw [upd_eq x0 x1 x2 x3 x4 x5 x6 x7 x8 hsrc]
  rfl

/-- THE RESULTS AGREE: the kernel program's result term is the reference's last stage. -/
theorem result_eq (x0 : FVec Ideal S20000x128 .f32) (x1 : IVec S2x640000 32) (x2 : FVec Ideal S640000 .f32) (x3 : FVec Ideal S640000x50 .f32) (x4 : FVec Ideal S50x128 .f32) (x5 : FVec Ideal S128 .f32) (x6 : FVec Ideal S128x128 .f32) (x7 : FVec Ideal S128 .f32) (x8 : FVec Ideal S128x128 .f32) (x9 : FVec Ideal S128x128 .f32) (x10 : FVec Ideal S128 .f32) (x11 : FVec Ideal S128x128 .f32) (x12 : FVec Ideal S128 .f32)
    (hsrc : ∀ e : S640000.Idx, IntOp.cmpi .sge (srcOf x1 e) 4294947296#32 = 1#1 ∧ IntOp.cmpi .slt (srcOf x1 e) 20000#32 = 1#1) :
    Tail.tailArr (aggArr (Proj.projArr x0 x8) (srcOf x1) (dstOf x1) (Filter.filterArr x3 x4 (rowOf x5) x6 (rowOf x7)) x2)
        x9 (rowOf x10) x11 (rowOf x12)
      = Cert.ReferenceIdeal.Read.val_main_v47 (F := Ideal) x0 x1 x2 x3 x4 x5 x6 x7 x8 x9 x10 x11 x12 := by
  funext i
  obtain ⟨r, q, rfl⟩ : ∃ (r : Fin 20000) (q : Fin 128), i = ix2 r q := ⟨i 0, i 1, eq_ix2 i⟩
  rw [Cert.ReferenceIdeal.RefValue.tail_apply, agg_eq x0 x1 x2 x3 x4 x5 x6 x7 x8 hsrc]
  unfold Tail.tailArr
  rw [show (fun k => rowOf x10 (ix2 0 k)) = (fun k => x10 (ix1 k)) from funext (rowOf_apply x10),
    show (fun q => rowOf x12 (ix2 0 q)) = (fun q => x12 (ix1 q)) from funext (rowOf_apply x12)]

end Cert.Proof.Bridge

end
-- ==== Proof.lean ====
/-
  A SchNet interaction block: a Pallas pipeline of three calls with host operations between them, against its jnp
  reference, over the extended reals.

  The kernel program projects the node features (h = x · lin1_w) 2000 rows at a time, runs the edge-filter network
  (W = ssp(ea · w1 + b1) · w2 + b2) 10000 edges at a time, forms on the host the cosine cutoff of each edge, the
  gathered source rows h[src], their product with W and the cutoff, and the sum of these messages per destination
  node, and finishes with the node tail (out = ssp(agg · lin2_w + lin2_b) · lin_w + lin_b) 2000 rows at a time. On
  the extended reals every bf16 rounding is the identity and a blocked product is the product, so each call's result
  array is the reference's stage as one function of whole arrays (RegionProj, RegionFilter, RegionTail; the blocks
  tile their arrays), the host operations between the calls are the reference's own (Middle), and the reference's run
  is its generated term read stage by stage (RefSide). The one place the programs differ is the gather: the kernel
  program fills a row whose source index is outside the node table, the reference clamps the index. The precondition
  keeps every source index in the table's range, −20000 ≤ src < 20000 with negatives counted from the end, where the
  fill never applies (PreIdx), so the two results are one function of the arguments (Bridge).
  The frames are the generated ones; nothing was rewritten by the ideal pass, so `preserves` is trivial.
-/
import proofs.«428623_j21354577395850_3_alg».proof.Defs
import proofs.«428623_j21354577395850_3_alg».proof.Proof.Gen.Kernel
import proofs.«428623_j21354577395850_3_alg».proof.Proof.Gen.Kernel.Skeleton
import proofs.«428623_j21354577395850_3_alg».proof.Proof.Gen.Kernel.Launch
import proofs.«428623_j21354577395850_3_alg».proof.Proof.Gen.Kernel.Points
import proofs.«428623_j21354577395850_3_alg».proof.Proof.Gen.Kernel.Frame
import proofs.«428623_j21354577395850_3_alg».proof.Proof.Gen.KernelIdeal
import proofs.«428623_j21354577395850_3_alg».proof.Proof.Gen.KernelIdeal.Skeleton
import proofs.«428623_j21354577395850_3_alg».proof.Proof.Gen.KernelIdeal.Launch
import proofs.«428623_j21354577395850_3_alg».proof.Proof.Gen.KernelIdeal.Points
import proofs.«428623_j21354577395850_3_alg».proof.Proof.Gen.KernelIdeal.Frame
import proofs.«428623_j21354577395850_3_alg».proof.Proof.Gen.ReferenceIdeal
import proofs.«428623_j21354577395850_3_alg».proof.Proof.Gen.Pre_finite_inputs
import proofs.«428623_j21354577395850_3_alg».proof.Proof.Gen.ReferenceIdeal.Run
import proofs.«428623_j21354577395850_3_alg».proof.Proof.Gen.ReferenceIdeal.Read
import proofs.«428623_j21354577395850_3_alg».proof.Proof.KernelRun
import proofs.«428623_j21354577395850_3_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the kernel program's launched arguments: the kernel program by
    its named run and the value bridge under the source-index range the precondition gives, the reference by its
    generated run with the agreeing arguments rewritten. -/
theorem algebraic : Cert.algebraic_KernelIdeal_ReferenceIdeal := by
  intro m ρ m' ρ' hpre hagree
  refine ⟨fun c => Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩) (Cert.KernelIdeal.Named.run_named (F := Ideal) m ρ)
    rw [Cert.KernelIdeal.Mid.result_eq m ρ c]
    exact Cert.Proof.Bridge.result_eq _ _ _ _ _ _ _ _ _ _ _ _ _
      (fun e => Cert.Pre_finite_inputs.src_in_range _ _ _ _ _ _ _ _ _ _ _ _ _ (hpre c) e)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11, h12⟩ := hagree c
    rw [Cert.ReferenceIdeal.Read.val_main_v47_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
